-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 1 := constantI S_ 1 1#1
  let main_v26 : IVec S_ 1 := (fun x v => Host.reduce IntOp.andi x v reducesTo_S2x640000_S_d0_1 h_S_) main_v25 main_c_9
  let main_v27 : IVec S_ 1 := andi main_v23 main_v26
  let main_c_10 : IVec S_ 32 := constantI S_ 32 100000#32
  let main_v28 : IVec S2x640000 32 := broadcastInDim S2x640000 ![] bcast_S_S2x640000 main_c_10
  let main_v29 : IVec S2x640000 1 := cmpi .slt main_arg1 main_v28
  let main_c_11 : IVec S_ 1 := constantI S_ 1 1#1
  let main_v30 : IVec S_ 1 := (fun x v => Host.reduce IntOp.andi x v reducesTo_S2x640000_S_d0_1 h_S_) main_v29 main_c_11
  let main_v31 : IVec S_ 1 := andi main_v27 main_v30
  main_v31

def fn {F : FTy → Type} [FloatOps F] (main_arg0 : FVec F S100000x128 .f32) (main_arg1 : IVec S2x640000 32) (main_arg2 : IVec S100000 32) (main_arg3 : FVec F S128x256 .f32) (main_arg4 : FVec F S256 .f32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg6 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S100000x256 : Shape := ⟨2, ![100000, 256]⟩
abbrev S5000x128 : Shape := ⟨2, ![5000, 128]⟩
abbrev S5000x256 : Shape := ⟨2, ![5000, 256]⟩
abbrev S640000x256 : Shape := ⟨2, ![640000, 256]⟩
abbrev S100000x1 : Shape := ⟨2, ![100000, 1]⟩
abbrev S1x256 : Shape := ⟨2, ![1, 256]⟩
abbrev S2000x256 : Shape := ⟨2, ![2000, 256]⟩
abbrev S2000x1 : Shape := ⟨2, ![2000, 1]⟩
abbrev S2000x128 : Shape := ⟨2, ![2000, 128]⟩
abbrev S640000x128 : Shape := ⟨2, ![640000, 128]⟩
abbrev S1x128 : Shape := ⟨2, ![1, 128]⟩
abbrev S5000x1 : Shape := ⟨2, ![5000, 1]⟩
abbrev S64x128 : Shape := ⟨2, ![64, 128]⟩
abbrev S64 : Shape := ⟨1, ![64]⟩
abbrev S64x1 : Shape := ⟨2, ![64, 1]⟩

abbrev nBuf : Space → Nat
  | .hbm => 152
  | .vmem => 24
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x256, .f32⟩
  | 4 => ⟨S256, .f32⟩
  | 5 => ⟨S256x128, .f32⟩
  | 6 => ⟨S128, .f32⟩
  | 7 => ⟨S1x640000, .i32⟩
  | 8 => ⟨S640000, .i32⟩
  | 9 => ⟨S1x640000, .i32⟩
  | 10 => ⟨S640000, .i32⟩
  | 11 => ⟨S_, .f32⟩
  | 12 => ⟨S640000, .f32⟩
  | 13 => ⟨S_, .f32⟩
  | 14 => ⟨S100000, .f32⟩
  | 15 => ⟨S640000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S1, .i32⟩
  | 30 => ⟨S_, .i32⟩
  | 31 => ⟨S640000x1, .i32⟩
  | 32 => ⟨S640000x1, .i1⟩
  | 33 => ⟨S1x1, .i32⟩
  | 34 => ⟨S640000x1, .i32⟩
  | 35 => ⟨S640000x1, .i1⟩
  | 36 => ⟨S640000x1, .i1⟩
  | 37 => ⟨S_, .i1⟩
  | 38 => ⟨S640000, .i1⟩
  | 39 => ⟨S640000, .f32⟩
  | 40 => ⟨S_, .f32⟩
  | 41 => ⟨S640000, .f32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S1, .i32⟩
  | 52 => ⟨S_, .i32⟩
  | 53 => ⟨S640000x1, .i32⟩
  | 54 => ⟨S640000x1, .i1⟩
  | 55 => ⟨S1x1, .i32⟩
  | 56 => ⟨S640000x1, .i32⟩
  | 57 => ⟨S640000x1, .i1⟩
  | 58 => ⟨S640000x1, .i1⟩
  | 59 => ⟨S_, .i1⟩
  | 60 => ⟨S640000, .i1⟩
  | 61 => ⟨S640000, .f32⟩
  | 62 => ⟨S_, .f32⟩
  | 63 => ⟨S640000, .f32⟩
  | 64 => ⟨S640000, .f32⟩
  | 65 => ⟨S640000, .f32⟩
  | 66 => ⟨S100000, .f32⟩
  | 67 => ⟨S128x256, .bf16⟩
  | 68 => ⟨S256x128, .bf16⟩
  | 69 => ⟨S100000x256, .f32⟩
  | 70 => ⟨S_, .i32⟩
  | 71 => ⟨S640000, .i32⟩
  | 72 => ⟨S640000, .i1⟩
  | 73 => ⟨S_, .i32⟩
  | 74 => ⟨S640000, .i32⟩
  | 75 => ⟨S640000, .i32⟩
  | 76 => ⟨S640000, .i32⟩
  | 77 => ⟨S640000x1, .i32⟩
  | 78 => ⟨S1, .i32⟩
  | 79 => ⟨S_, .i32⟩
  | 80 => ⟨S640000x1, .i32⟩
  | 81 => ⟨S640000x1, .i1⟩
  | 82 => ⟨S1x1, .i32⟩
  | 83 => ⟨S640000x1, .i32⟩
  | 84 => ⟨S640000x1, .i1⟩
  | 85 => ⟨S640000x1, .i1⟩
  | 86 => ⟨S_, .i1⟩
  | 87 => ⟨S640000, .i1⟩
  | 88 => ⟨S640000x256, .f32⟩
  | 89 => ⟨S640000x256, .i1⟩
  | 90 => ⟨S_, .f32⟩
  | 91 => ⟨S640000x256, .f32⟩
  | 92 => ⟨S640000x256, .f32⟩
  | 93 => ⟨S640000x1, .f32⟩
  | 94 => ⟨S640000x256, .f32⟩
  | 95 => ⟨S640000x256, .f32⟩
  | 96 => ⟨S_, .f32⟩
  | 97 => ⟨S100000x256, .f32⟩
  | 98 => ⟨S640000x1, .i32⟩
  | 99 => ⟨S100000x256, .f32⟩
  | 100 => ⟨S100000x1, .f32⟩
  | 101 => ⟨S1x256, .f32⟩
  | 102 => ⟨S100000x128, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S1, .i32⟩
  | 112 => ⟨S_, .i32⟩
  | 113 => ⟨S640000x1, .i32⟩
  | 114 => ⟨S640000x1, .i1⟩
  | 115 => ⟨S1x1, .i32⟩
  | 116 => ⟨S640000x1, .i32⟩
  | 117 => ⟨S640000x1, .i1⟩
  | 118 => ⟨S640000x1, .i1⟩
  | 119 => ⟨S_, .i1⟩
  | 120 => ⟨S640000, .i1⟩
  | 121 => ⟨S640000x128, .f32⟩
  | 122 => ⟨S640000x128, .i1⟩
  | 123 => ⟨S_, .f32⟩
  | 124 => ⟨S640000x128, .f32⟩
  | 125 => ⟨S640000x128, .f32⟩
  | 126 => ⟨S640000x1, .f32⟩
  | 127 => ⟨S640000x128, .f32⟩
  | _ => ⟨S100000x128, .f32⟩

abbrev hbmTy0_1 (i : Nat) : BufTy := match i % 128 with
  | 0 => ⟨S640000x128, .f32⟩
  | 1 => ⟨S_, .f32⟩
  | 2 => ⟨S100000x128, .f32⟩
  | 3 => ⟨S640000x1, .i32⟩
  | 4 => ⟨S100000x128, .f32⟩
  | 5 => ⟨S100000x1, .f32⟩
  | 6 => ⟨S1x128, .f32⟩
  | 7 => ⟨S100000x128, .f32⟩
  | 8 => ⟨S_, .f32⟩
  | 9 => ⟨S64x128, .f32⟩
  | 10 => ⟨S100000x1, .i32⟩
  | 11 => ⟨S64x128, .f32⟩
  | 12 => ⟨S_, .f32⟩
  | 13 => ⟨S100000, .f32⟩
  | 14 => ⟨S_, .f32⟩
  | 15 => ⟨S64, .f32⟩
  | 16 => ⟨S100000x1, .i32⟩
  | 17 => ⟨S64, .f32⟩
  | 18 => ⟨S_, .f32⟩
  | 19 => ⟨S64, .f32⟩
  | 20 => ⟨S64, .f32⟩
  | 21 => ⟨S64x1, .f32⟩
  | 22 => ⟨S64x128, .f32⟩
  | 23 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S5000x256, .f32⟩
  | .local _ .vmem, ⟨4, _⟩ => ⟨S5000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x128, .bf16⟩
  | .local _ .vmem, ⟨13, _⟩ => ⟨S2000x128, .f32⟩
  | .local _ .vmem, ⟨14, _⟩ => ⟨S2000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v11 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_cst_2 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_cst_3 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_cst_4 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_cst_5 : Ref sig .tc := ⟨.hbm, 140, rfl⟩
abbrev main_v41 : Ref sig .tc := ⟨.hbm, 141, rfl⟩
abbrev main_cst_6 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_cst_7 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S640000_S640000x256_0 : S640000.BroadcastsInDim S640000x256 (![0] : Fin 1 → Fin S640000x256.rank)
  bcast_S_S640000x256 : S_.BroadcastsInDim S640000x256 (![] : Fin 0 → Fin S640000x256.rank)
  bcast_S640000x1_S640000x256_0_1 : S640000x1.BroadcastsInDim S640000x256 (![0, 1] : Fin 2 → Fin S640000x256.rank)
  bcast_S_S100000x256 : S_.BroadcastsInDim S100000x256 (![] : Fin 0 → Fin S100000x256.rank)
  shapeCasts_S100000_S100000x1 : S100000.ShapeCasts S100000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x256_S5000x256_1_0_0_1_n_n_wf : DotDims.WF S5000x128 S128x256 S5000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S2000x256_S256x128_S2000x128_1_0_0_1_n_n_wf : DotDims.WF S2000x256 S256x128 S2000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x256 : Shape := ⟨2, ![100000, 256]⟩
abbrev S640000x256 : Shape := ⟨2, ![640000, 256]⟩
abbrev S100000x1 : Shape := ⟨2, ![100000, 1]⟩
abbrev S1x256 : Shape := ⟨2, ![1, 256]⟩
abbrev S640000x128 : Shape := ⟨2, ![640000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x256, .f32⟩
  | 4 => ⟨S256, .f32⟩
  | 5 => ⟨S256x128, .f32⟩
  | 6 => ⟨S128, .f32⟩
  | 7 => ⟨S1x640000, .i32⟩
  | 8 => ⟨S640000, .i32⟩
  | 9 => ⟨S1x640000, .i32⟩
  | 10 => ⟨S640000, .i32⟩
  | 11 => ⟨S_, .f32⟩
  | 12 => ⟨S640000, .f32⟩
  | 13 => ⟨S_, .f32⟩
  | 14 => ⟨S100000, .f32⟩
  | 15 => ⟨S640000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S100000x256, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S640000, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x256, .f32⟩
  | 50 => ⟨S640000x1, .f32⟩
  | 51 => ⟨S640000x256, .f32⟩
  | 52 => ⟨S640000x256, .f32⟩
  | 53 => ⟨S_, .f32⟩
  | 54 => ⟨S100000x256, .f32⟩
  | 55 => ⟨S640000x1, .i32⟩
  | 56 => ⟨S100000x256, .f32⟩
  | 57 => ⟨S100000, .f32⟩
  | 58 => ⟨S100000x1, .f32⟩
  | 59 => ⟨S100000x256, .f32⟩
  | 60 => ⟨S100000x256, .f32⟩
  | 61 => ⟨S100000x256, .f32⟩
  | 62 => ⟨S1x256, .f32⟩
  | 63 => ⟨S100000x256, .f32⟩
  | 64 => ⟨S100000x256, .f32⟩
  | 65 => ⟨S_, .f32⟩
  | 66 => ⟨S100000x256, .f32⟩
  | 67 => ⟨S100000x256, .f32⟩
  | 68 => ⟨S_, .f32⟩
  | 69 => ⟨S640000, .f32⟩
  | 70 => ⟨S_, .f32⟩
  | 71 => ⟨S100000, .f32⟩
  | 72 => ⟨S640000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S100000x128, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S640000, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S640000x128, .f32⟩
  | 107 => ⟨S640000x1, .f32⟩
  | 108 => ⟨S640000x128, .f32⟩
  | 109 => ⟨S640000x128, .f32⟩
  | 110 => ⟨S_, .f32⟩
  | 111 => ⟨S100000x128, .f32⟩
  | 112 => ⟨S640000x1, .i32⟩
  | 113 => ⟨S100000x128, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .f32⟩
  | 126 => ⟨S64x128, .f32⟩
  | 127 => ⟨S100000x1, .i32⟩
  | _ => ⟨S100000x128, .f32⟩

abbrev hbmTy0_1 (i : Nat) : BufTy := match i % 128 with
  | 0 => ⟨S64x128, .f32⟩
  | 1 => ⟨S_, .f32⟩
  | 2 => ⟨S100000, .f32⟩
  | 3 => ⟨S_, .f32⟩
  | 4 => ⟨S64, .f32⟩
  | 5 => ⟨S100000x1, .i32⟩
  | 6 => ⟨S64, .f32⟩
  | 7 => ⟨S_, .f32⟩
  | 8 => ⟨S64, .f32⟩
  | 9 => ⟨S64, .f32⟩
  | 10 => ⟨S64x1, .f32⟩
  | 11 => ⟨S64x128, .f32⟩
  | 12 => ⟨S64x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_21 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x256_0_1 : S640000x1.BroadcastsInDim S640000x256 (![0, 1] : Fin 2 → Fin S640000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000_S640000x1_S640000_n_0_n_n_0_1_1_wf : GatherDims.WF S100000 S640000x1 S640000 [] [0] [] [0] [] 1 ![1]
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x128_S100000x128_1_0_0_1_n_n_wf : DotDims.WF S100000x256 S256x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.IdxRange.lean ====
/-
  What the precondition says about the edge list.

  The precondition is a conjunction: five finiteness tests of the float inputs and two range tests of the edge list,
  `all (edge_index >= 0)` and `all (edge_index < 100000)`. Each `all` is an and-reduction of a pointwise signed
  compare against a broadcast constant. Read entry by entry, the last two conjuncts say that every entry of the
  2 × 640000 edge list is a node number: at least 0 and below 100000 as a signed word.
-/
import proofs.«424269_j11579231830106_3_alg».proof.Pre_finite_inputs
import proofs.«424269_j11579231830106_3_alg».proof.Proof.Gen.Pre_finite_inputs
import Idealize.ShloMosaic.Lib.ReduceAll
import Idealize.ShloMosaic.Lib.StableHlo.Predicate
import Idealize.ShloMosaic.Lib.ValueIdx

noncomputable section

namespace Cert.IdxRange

open Idealize.ShloMosaic Cert.Pre_finite_inputs

/-- A signed word that is a node number: at least 0 and below 100000. -/
def IsNode (w : BitVec 32) : Prop := IntOp.cmpi .sge w 0#32 = 1#1 ∧ IntOp.cmpi .slt w 100000#32 = 1#1

/-- The result shape of an `all` has exactly one index. -/
instance subsingleton_S_Idx : Subsingleton S_.Idx := ⟨fun a b => funext fun d => d.elim0⟩

/-- A scalar constant spread over the edge list reads that constant at every entry. -/
theorem bcast_const_apply (c : BitVec 32) (i : S2x640000.Idx) :
    (broadcastInDim S2x640000 ![] Facts.bcast_S_S2x640000 (constantI S_ 32 c) : IVec S2x640000 32) i = c := by
  rw [StableHlo.Predicate.bcast_scalar Facts.bcast_S_S2x640000 Facts.h_S_]
  rfl

/-- Under the precondition every entry of the edge list is a node number. -/
theorem of_pre {F : FTy → Type} [FloatOps F]
    (a0 : FVec F S100000x128 .f32) (a1 : IVec S2x640000 32) (a2 : IVec S100000 32) (a3 : FVec F S128x256 .f32)
    (a4 : FVec F S256 .f32) (a5 : FVec F S256x128 .f32) (a6 : FVec F S128 .f32)
    (h : Cert.Pre_finite_inputs.fn (F := F) a0 a1 a2 a3 a4 a5 a6 = fun _ => 1#1) :
    ∀ i : S2x640000.Idx, IsNode (a1 i) := by
  intro i
  -- the precondition at its one index is a chain of `and`s; only the last two conjuncts are wanted
  have h0 := congrFun h ValueIdx.ix0
  simp only [Cert.Pre_finite_inputs.fn, Cert.Pre_finite_inputs.fn_part1, andi, IntOp.andi_eq_one] at h0
  obtain ⟨⟨_, hge⟩, hlt⟩ := h0
  -- each `all` that came out 1 had a 1 at every entry
  have hge' := Host.reduce_andi_all _ _ _ _ _ hge i
  have hlt' := Host.reduce_andi_all _ _ _ _ _ hlt i
  -- the compare is entry by entry, against the constant
  simp only [cmpi, bcast_const_apply] at hge' hlt'
  exact ⟨hge', hlt'⟩

end Cert.IdxRange

end
-- ==== Proof.TakeLaw.lean ====
/-
  A take at node numbers is the plain gather.

  The kernel program spells each of its four gathers as jnp.take in its default mode: the index vector is first
  wrapped (a negative index gets 100000 added), laid out as a 640000 × 1 column of start indices, and gathered; beside
  it a mask is computed, `0 <= start` and `start <= 99999` and-reduced along the unit axis, and the result is the
  gathered value where the mask is set and a NaN fill where it is clear. When every index is a node number
  (0 <= i < 100000) the wrap leaves it alone, both compares hold at every position, the mask is all ones, and the
  select returns the gathered value everywhere: the take IS the gather, with the same wrapped start column.
-/
import proofs.«424269_j11579231830106_3_alg».proof.KernelIdeal
import proofs.«424269_j11579231830106_3_alg».proof.Proof.Gen.KernelIdeal
import proofs.«424269_j11579231830106_3_alg».proof.Proof.IdxRange
import Idealize.ShloMosaic.Lib.ReduceAll
import Idealize.ShloMosaic.Lib.StableHlo.Predicate
import Idealize.ShloMosaic.Lib.ValueIdx

noncomputable section

namespace Cert.KernelIdeal.TakeLaw

open Cert.KernelIdeal Cert.KernelIdeal.Gen Idealize.ShloMosaic Cert.IdxRange

variable {F : FTy → Type} [FloatOps F]

/-- The start-index column of a take: the index vector with negatives wrapped, as a 640000 × 1 column. -/
def startCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 100000#32))) idx)

/-- The in-bounds mask of a take: `0 <= start` and `start <= 99999`, and-reduced along the unit axis. -/
def inBounds (idx : IVec S640000 32) : IVec S640000 1 :=
  Host.reduce IntOp.andi
    (andi (cmpi .sge (startCol idx) (broadcastInDim S640000x1 ![] bcast_S_S640000x1 (constantI S_ 32 0#32)))
      (cmpi .sle (startCol idx) (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- An and-fold that starts at 1 and meets only 1s ends at 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a List.mem_cons_self, h11]
    exact foldl_andi_ones f l (fun n hn => h n (List.mem_cons_of_mem _ hn))

/-- An and-reduction from 1 of a mask that is 1 everywhere is 1 at every result index. -/
theorem reduce_andi_ones {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl, hinit]
  exact foldl_andi_ones x _ (fun i _ => hx i)

/-- A node number is not negative: the wrap test `w < 0` fails. -/
theorem not_neg_of_isNode {w : BitVec 32} (h : IsNode w) : ¬ IntOp.cmpi .slt w 0#32 = 1#1 := by
  have h0 := IntOp.cmpi_sge.1 h.1
  rw [IntOp.cmpi_slt]
  omega

/-- A node number is at most the last node, 99999. -/
theorem le_last_of_isNode {w : BitVec 32} (h : IsNode w) : IntOp.cmpi .sle w 99999#32 = 1#1 := by
  have h1 := IntOp.cmpi_slt.1 h.2
  have e1 : (100000#32 : BitVec 32).toInt = 100000 := by decide
  have e2 : (99999#32 : BitVec 32).toInt = 99999 := by decide
  rw [IntOp.cmpi_sle]
  omega

/-- At node numbers the wrap of negative indices changes nothing. -/
theorem wrap_eq (idx : IVec S640000 32) (h : ∀ e : S640000.Idx, IsNode (idx e)) :
    select (cmpi .slt idx (broadcastInDim S640000 ![] bcast_S_S640000 (constantI S_ 32 0#32)))
      (addi idx (broadcastInDim S640000 ![] bcast_S_S640000 (constantI S_ 32 100000#32))) idx = idx := by
  funext j
  rw [ValueIdx.select_apply]
  -- the condition at `j` is the test `idx j < 0`, which a node number fails
  have hc : cmpi .slt idx (broadcastInDim S640000 ![] bcast_S_S640000 (constantI S_ 32 0#32)) j = 0#1 :=
    ValueIdx.eq_zero_of_ne_one (not_neg_of_isNode (h j))
  rw [hc, ValueIdx.select_zero]

/-- At node numbers the start column is the index vector itself laid out as a column. -/
theorem startCol_eq (idx : IVec S640000 32) (h : ∀ e : S640000.Idx, IsNode (idx e)) :
    startCol idx = broadcastInDim S640000x1 ![0] bcast_S640000_S640000x1_0 idx := by
  unfold startCol
  rw [wrap_eq idx h]

/-- At node numbers every entry of the start column is a node number. -/
theorem startCol_isNode (idx : IVec S640000 32) (h : ∀ e : S640000.Idx, IsNode (idx e)) (i : S640000x1.Idx) :
    IsNode (startCol idx i) := by
  rw [startCol_eq idx h]
  -- a broadcast entry is an entry of the operand
  unfold broadcastInDim
  exact h _

/-- At node numbers the mask is set everywhere. -/
theorem inBounds_ones (idx : IVec S640000 32) (h : ∀ e : S640000.Idx, IsNode (idx e)) : inBounds idx = fun _ => 1#1 := by
  funext e
  show inBounds idx e = 1#1
  unfold inBounds
  refine reduce_andi_ones _ _ _ _ rfl (fun i => ?_) e
  -- at each entry of the column both compares hold, the bounds being the constants 0 and 99999
  have hi : IsNode (startCol idx i) := startCol_isNode idx h i
  exact IntOp.andi_eq_one.2 ⟨hi.1, le_last_of_isNode hi⟩

/-- The row of sources (row 0 of the edge list, as a vector) holds node numbers. -/
theorem src_isNode (a1 : IVec S2x640000 32) (h : ∀ i : S2x640000.Idx, IsNode (a1 i)) (e : S640000.Idx) :
    IsNode ((shapeCast S640000 (extractStridedSlice S1x640000 ![0, 0] a1 slices_S2x640000_S1x640000_0_0) shapeCasts_S1x640000_S640000 : IVec S640000 32) e) := by
  -- a reshaped slice reads an entry of the edge list, and every entry is a node number
  unfold shapeCast extractStridedSlice
  exact h _

/-- The row of destinations (row 1 of the edge list, as a vector) holds node numbers. -/
theorem dst_isNode (a1 : IVec S2x640000 32) (h : ∀ i : S2x640000.Idx, IsNode (a1 i)) (e : S640000.Idx) :
    IsNode ((shapeCast S640000 (extractStridedSlice S1x640000 ![1, 0] a1 slices_S2x640000_S1x640000_1_0) shapeCasts_S1x640000_S640000 : IVec S640000 32) e) := by
  -- a reshaped slice reads an entry of the edge list, and every entry is a node number
  unfold shapeCast extractStridedSlice
  exact h _

/-- A take of a vector at node numbers is the gather. -/
theorem take1_eq (a : FVec F S100000 .f32) (idx : IVec S640000 32) (h : ∀ e : S640000.Idx, IsNode (idx e)) :
    select (inBounds idx) (Host.gather gather_S100000_S640000x1_S640000_n_0_n_n_0_1_1 a (startCol idx))
        (broadcastInDim S640000 ![] bcast_S_S640000 (constant S_ .f32 0x7FC00000#32))
      = Host.gather gather_S100000_S640000x1_S640000_n_0_n_n_0_1_1 a (startCol idx) := by
  funext i
  -- the mask is 1 at every position, so the select keeps the gathered value
  rw [ValueIdx.select_apply, inBounds_ones idx h]
  exact ValueIdx.select_one _ _

/-- A take of the rows of a 100000 × 256 array at node numbers is the gather. -/
theorem take256_eq (a : FVec F S100000x256 .f32) (idx : IVec S640000 32) (h : ∀ e : S640000.Idx, IsNode (idx e)) :
    select (broadcastInDim S640000x256 ![0] bcast_S640000_S640000x256_0 (inBounds idx))
        (Host.gather gather_S100000x256_S640000x1_S640000x256_1_0_n_n_0_1_1256 a (startCol idx))
        (broadcastInDim S640000x256 ![] bcast_S_S640000x256 (constant S_ .f32 0x7FC00000#32))
      = Host.gather gather_S100000x256_S640000x1_S640000x256_1_0_n_n_0_1_1256 a (startCol idx) := by
  funext i
  -- the mask is 1 at every position, so the select keeps the gathered value
  rw [ValueIdx.select_apply, inBounds_ones idx h]
  exact ValueIdx.select_one _ _

/-- A take of the rows of a 100000 × 128 array at node numbers is the gather. -/
theorem take128_eq (a : FVec F S100000x128 .f32) (idx : IVec S640000 32) (h : ∀ e : S640000.Idx, IsNode (idx e)) :
    select (broadcastInDim S640000x128 ![0] bcast_S640000_S640000x128_0 (inBounds idx))
        (Host.gather gather_S100000x128_S640000x1_S640000x128_1_0_n_n_0_1_1128 a (startCol idx))
        (broadcastInDim S640000x128 ![] bcast_S_S640000x128 (constant S_ .f32 0x7FC00000#32))
      = Host.gather gather_S100000x128_S640000x1_S640000x128_1_0_n_n_0_1_1128 a (startCol idx) := by
  funext i
  -- the mask is 1 at every position, so the select keeps the gathered value
  rw [ValueIdx.select_apply, inBounds_ones idx h]
  exact ValueIdx.select_one _ _

end Cert.KernelIdeal.TakeLaw

end
-- ==== Proof.Walk0.lean ====
/-
  The kernel program's host side up to its first pallas_call, read against the reference, stage by stage.

  Before the first region the program slices the edge list into its row of sources and its row of destinations,
  counts each node's in-degree by a scatter-add of ones, adds the self loop and takes the reciprocal square root
  (the degree scale), takes the scale at the sources and at the destinations and multiplies the two (the edge
  coefficient), squares the scale (the self-loop scale), and narrows the two weight matrices to bf16. The reference
  does the same operations in the same order on the same arguments, with one difference of spelling: where the
  reference gathers, the kernel program TAKES — it gathers, and selects a fill where its in-bounds mask is clear.
  At node numbers the mask is set everywhere (TakeLaw), so each take is the reference's gather, and every buffer
  below holds exactly the reference's stage of the same name.

  A take's operations are printed inside an outlined function, and its buffers are read through a transport along
  "this buffer's type is the value's type", an equation that holds by computation. Each take stretch is therefore
  first read from ARBITRARY contents before it, where the transports stand on both sides of the equation alike;
  the run's own contents are put in afterwards by rewriting.
-/
import proofs.«424269_j11579231830106_3_alg».proof.Proof.Gen.KernelIdeal.Frame
import proofs.«424269_j11579231830106_3_alg».proof.Proof.Gen.ReferenceIdeal.Read
import proofs.«424269_j11579231830106_3_alg».proof.Proof.TakeLaw
import Idealize.ShloMosaic.Lib.StableHlo.Run
import Idealize.ShloMosaic.Lib.Pipeline.Value
import Idealize.ShloMosaic.Lib.ValueIdx

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Cert.IdxRange Cert.KernelIdeal.TakeLaw

variable (m : (ℓ : Loc nD τ sig) → Buf (Elt Ideal) ℓ) (ρ : Dev nD → PrngReg)

/-! ## Transports along a buffer's type equation -/

/-- Contents carried to a buffer's own type and back are the contents. -/
theorem ofBuf_toBuf {Val : EltTy → Type} {T : BufTy} (x : TRef sig T) (v : T.Contents Val) : x.ofBuf (x.toBuf v) = v := by
  obtain ⟨r, h, h2, h3⟩ := x
  subst h
  rfl

/-- Contents carried to a buffer's own type are what they were, up to that type. -/
theorem toBuf_eq_of {Val : EltTy → Type} {T : BufTy} (x : TRef sig T) (v : T.Contents Val) (w : x.ref.ty.Contents Val)
    (h : HEq v w) : x.toBuf v = w := by
  obtain ⟨r, e, h2, h3⟩ := x
  subst e
  exact eq_of_heq h

/-- Contents read at the value's type are what they were, up to that type. -/
theorem ofBuf_eq_of {Val : EltTy → Type} {T : BufTy} (x : TRef sig T) (w : x.ref.ty.Contents Val) (v : T.Contents Val)
    (h : HEq w v) : x.ofBuf w = v := by
  obtain ⟨r, e, h2, h3⟩ := x
  subst e
  exact eq_of_heq h

/-! ## The typed references the takes read and write -/

abbrev rV1 : TRef sig ⟨S640000, .i32⟩ := TRef.of main_v1
abbrev rV3 : TRef sig ⟨S640000, .i32⟩ := TRef.of main_v3
abbrev rV10 : TRef sig ⟨S100000, .f32⟩ := TRef.of main_v10
abbrev rV11 : TRef sig ⟨S640000, .f32⟩ := TRef.of main_v11
abbrev rV12 : TRef sig ⟨S640000, .f32⟩ := TRef.of main_v12

/-- The fill a take writes where its mask is clear. -/
abbrev fill1 : FVec Ideal S640000 .f32 := broadcastInDim S640000 ![] bcast_S_S640000 (constant (F := Ideal) S_ .f32 0x7FC00000#32)

/-! ## The stretches, from arbitrary contents before them -/

section AnyContents

variable (V : Valuation τ sig (Elt Ideal))

set_option maxHeartbeats 4000000 in
/-- The take of the degree scale at the sources. -/
theorem take_scale_src :
    StableHlo.after hostOps0_1 V (Proc.devRef .tc main_v11)
      = rV11.toBuf (select (inBounds (rV1.ofBuf (V (Proc.devRef .tc main_v1))))
          (Host.gather gather_S100000_S640000x1_S640000_n_0_n_n_0_1_1 (rV10.ofBuf (V (Proc.devRef .tc main_v10)))
            (startCol (rV1.ofBuf (V (Proc.devRef .tc main_v1)))))
          fill1) := by
  after_results_simp
  simp only [ofBuf_toBuf]
  rfl

set_option maxHeartbeats 4000000 in
/-- The first take leaves the rows of the edge list and the degree scale as they were. -/
theorem take_scale_src_keeps :
    StableHlo.after hostOps0_1 V (Proc.devRef .tc main_v3) = V (Proc.devRef .tc main_v3)
    ∧ StableHlo.after hostOps0_1 V (Proc.devRef .tc main_v10) = V (Proc.devRef .tc main_v10) := by
  constructor <;> after_results_simp

set_option maxHeartbeats 4000000 in
/-- The take of the degree scale at the destinations. -/
theorem take_scale_dst :
    StableHlo.after hostOps0_2 V (Proc.devRef .tc main_v12)
      = rV12.toBuf (select (inBounds (rV3.ofBuf (V (Proc.devRef .tc main_v3))))
          (Host.gather gather_S100000_S640000x1_S640000_n_0_n_n_0_1_1 (rV10.ofBuf (V (Proc.devRef .tc main_v10)))
            (startCol (rV3.ofBuf (V (Proc.devRef .tc main_v3)))))
          fill1) := by
  after_results_simp
  simp only [ofBuf_toBuf]
  rfl

set_option maxHeartbeats 4000000 in
/-- The second take leaves the first take's result as it was. -/
theorem take_scale_dst_keeps :
    StableHlo.after hostOps0_2 V (Proc.devRef .tc main_v11) = V (Proc.devRef .tc main_v11) := by
  after_results_simp

/-- The edge coefficient is the product of the two takes. -/
theorem coef_of :
    (StableHlo.after hostOps0_3 V (Proc.devRef .tc main_v13) : FVec Ideal S640000 .f32)
      = mulf (F := Ideal) (s := S640000) (φ := .f32) (V (Proc.devRef .tc main_v11)) (V (Proc.devRef .tc main_v12)) := by
  after_results
  all_goals rfl

end AnyContents

/-! ## This run's contents -/

/-- The arguments as launched. -/
abbrev A0 (c : Dev nD) : FVec Ideal S100000x128 .f32 := m ((c : Thread nD τ).loc main_arg0)
abbrev A1 (c : Dev nD) : IVec S2x640000 32 := m ((c : Thread nD τ).loc main_arg1)
abbrev A2 (c : Dev nD) : IVec S100000 32 := m ((c : Thread nD τ).loc main_arg2)
abbrev A3 (c : Dev nD) : FVec Ideal S128x256 .f32 := m ((c : Thread nD τ).loc main_arg3)
abbrev A4 (c : Dev nD) : FVec Ideal S256 .f32 := m ((c : Thread nD τ).loc main_arg4)
abbrev A5 (c : Dev nD) : FVec Ideal S256x128 .f32 := m ((c : Thread nD τ).loc main_arg5)
abbrev A6 (c : Dev nD) : FVec Ideal S128 .f32 := m ((c : Thread nD τ).loc main_arg6)

/-- The reference's vector of sources, of destinations, and its degree scale. -/
abbrev srcR (c : Dev nD) : IVec S640000 32 := Cert.ReferenceIdeal.Read.val_main_v1 (F := Ideal) (A1 m c)
abbrev dstR (c : Dev nD) : IVec S640000 32 := Cert.ReferenceIdeal.Read.val_main_v3 (F := Ideal) (A1 m c)
abbrev scaleR (c : Dev nD) : FVec Ideal S100000 .f32 := Cert.ReferenceIdeal.Read.val_main_v10 (F := Ideal) (A1 m c)

variable (c : Dev nD)

/-- After the first stretch: the sources. -/
theorem W1_src : W1 m ρ c (Proc.devRef .tc main_v1) = srcR m c := by
  show StableHlo.after hostOps0 (W0 m ρ c) (Proc.devRef .tc main_v1) = _
  after_results
  rfl

/-- After the first stretch: the destinations. -/
theorem W1_dst : W1 m ρ c (Proc.devRef .tc main_v3) = dstR m c := by
  show StableHlo.after hostOps0 (W0 m ρ c) (Proc.devRef .tc main_v3) = _
  after_results
  rfl

/-- After the first stretch: the degree scale. -/
theorem W1_scale : W1 m ρ c (Proc.devRef .tc main_v10) = scaleR m c := by
  show StableHlo.after hostOps0 (W0 m ρ c) (Proc.devRef .tc main_v10) = _
  after_results
  rfl

/-- Under the precondition the sources and the destinations are node numbers. -/
theorem srcR_isNode (hN : ∀ i : S2x640000.Idx, IsNode (A1 m c i)) (e : S640000.Idx) : IsNode (srcR m c e) :=
  src_isNode (A1 m c) hN e
theorem dstR_isNode (hN : ∀ i : S2x640000.Idx, IsNode (A1 m c i)) (e : S640000.Idx) : IsNode (dstR m c e) :=
  dst_isNode (A1 m c) hN e

/-- The scale taken at the sources is the reference's gather of it. -/
theorem W2_take_src (hN : ∀ i : S2x640000.Idx, IsNode (A1 m c i)) :
    W2 m ρ c (Proc.devRef .tc main_v11) = Cert.ReferenceIdeal.Read.val_main_v18 (F := Ideal) (A1 m c) := by
  refine (take_scale_src (W1 m ρ c)).trans ?_
  rw [ofBuf_eq_of rV1 (W1 m ρ c (Proc.devRef .tc main_v1)) (srcR m c) (heq_of_eq (W1_src m ρ c)),
    ofBuf_eq_of rV10 (W1 m ρ c (Proc.devRef .tc main_v10)) (scaleR m c) (heq_of_eq (W1_scale m ρ c)),
    take1_eq (F := Ideal) (scaleR m c) (srcR m c) (srcR_isNode m c hN)]
  exact toBuf_eq_of rV11 _ _ (heq_of_eq rfl)

/-- The scale taken at the destinations is the reference's gather of it. -/
theorem W3_take_dst (hN : ∀ i : S2x640000.Idx, IsNode (A1 m c i)) :
    W3 m ρ c (Proc.devRef .tc main_v12) = Cert.ReferenceIdeal.Read.val_main_v25 (F := Ideal) (A1 m c) := by
  refine (take_scale_dst (W2 m ρ c)).trans ?_
  rw [ofBuf_eq_of rV3 (W2 m ρ c (Proc.devRef .tc main_v3)) (dstR m c)
      (heq_of_eq (((take_scale_src_keeps (W1 m ρ c)).1).trans (W1_dst m ρ c))),
    ofBuf_eq_of rV10 (W2 m ρ c (Proc.devRef .tc main_v10)) (scaleR m c)
      (heq_of_eq (((take_scale_src_keeps (W1 m ρ c)).2).trans (W1_scale m ρ c))),
    take1_eq (F := Ideal) (scaleR m c) (dstR m c) (dstR_isNode m c hN)]
  exact toBuf_eq_of rV12 _ _ (heq_of_eq rfl)

/-- At the first region's entry: the edge coefficient is the reference's. -/
theorem W4_coef (hN : ∀ i : S2x640000.Idx, IsNode (A1 m c i)) :
    W4 m ρ c (Proc.devRef .tc main_v13) = Cert.ReferenceIdeal.Read.val_main_v26 (F := Ideal) (A1 m c) := by
  refine (coef_of (W3 m ρ c)).trans ?_
  rw [show W3 m ρ c (Proc.devRef .tc main_v11) = Cert.ReferenceIdeal.Read.val_main_v18 (F := Ideal) (A1 m c) from
      (take_scale_dst_keeps (W2 m ρ c)).trans (W2_take_src m ρ c hN),
    W3_take_dst m ρ c hN]
  rfl

set_option maxHeartbeats 4000000 in
/-- At the first region's entry: the sources, the destinations, the squared scale, the narrowed weights, and the
    arguments the later stretches read, each as the reference has it or as launched. -/
theorem W4_src : W4 m ρ c (Proc.devRef .tc main_v1) = srcR m c := by
  show StableHlo.after hostOps0_3 (StableHlo.after hostOps0_2 (StableHlo.after hostOps0_1 (StableHlo.after hostOps0 (W0 m ρ c)))) (Proc.devRef .tc main_v1) = _
  after_results_simp
  all_goals rfl

set_option maxHeartbeats 4000000 in
theorem W4_dst : W4 m ρ c (Proc.devRef .tc main_v3) = dstR m c := by
  show StableHlo.after hostOps0_3 (StableHlo.after hostOps0_2 (StableHlo.after hostOps0_1 (StableHlo.after hostOps0 (W0 m ρ c)))) (Proc.devRef .tc main_v3) = _
  after_results_simp
  all_goals rfl

set_option maxHeartbeats 4000000 in
theorem W4_scale2 : W4 m ρ c (Proc.devRef .tc main_v14) = Cert.ReferenceIdeal.Read.val_main_v40 (F := Ideal) (A1 m c) := by
  show StableHlo.after hostOps0_3 (StableHlo.after hostOps0_2 (StableHlo.after hostOps0_1 (StableHlo.after hostOps0 (W0 m ρ c)))) (Proc.devRef .tc main_v14) = _
  after_results_simp
  all_goals rfl

set_option maxHeartbeats 4000000 in
theorem W4_w1 : W4 m ρ c (Proc.devRef .tc main_v15) = truncf .bf16 (A3 m c) bitsLt_bf16_f32 := by
  show StableHlo.after hostOps0_3 (StableHlo.after hostOps0_2 (StableHlo.after hostOps0_1 (StableHlo.after hostOps0 (W0 m ρ c)))) (Proc.devRef .tc main_v15) = _
  after_results_simp
  all_goals rfl

set_option maxHeartbeats 4000000 in
theorem W4_w2 : W4 m ρ c (Proc.devRef .tc main_v16) = truncf .bf16 (A5 m c) bitsLt_bf16_f32 := by
  show StableHlo.after hostOps0_3 (StableHlo.after hostOps0_2 (StableHlo.after hostOps0_1 (StableHlo.after hostOps0 (W0 m ρ c)))) (Proc.devRef .tc main_v16) = _
  after_results_simp
  all_goals rfl

set_option maxHeartbeats 4000000 in
theorem W4_x : W4 m ρ c (Proc.devRef .tc main_arg0) = A0 m c := by
  show StableHlo.after hostOps0_3 (StableHlo.after hostOps0_2 (StableHlo.after hostOps0_1 (StableHlo.after hostOps0 (W0 m ρ c)))) (Proc.devRef .tc main_arg0) = _
  after_results_simp
  all_goals rfl

set_option maxHeartbeats 4000000 in
theorem W4_batch : W4 m ρ c (Proc.devRef .tc main_arg2) = A2 m c := by
  show StableHlo.after hostOps0_3 (StableHlo.after hostOps0_2 (StableHlo.after hostOps0_1 (StableHlo.after hostOps0 (W0 m ρ c)))) (Proc.devRef .tc main_arg2) = _
  after_results_simp
  all_goals rfl

set_option maxHeartbeats 4000000 in
theorem W4_b1 : W4 m ρ c (Proc.devRef .tc main_arg4) = A4 m c := by
  show StableHlo.after hostOps0_3 (StableHlo.after hostOps0_2 (StableHlo.after hostOps0_1 (StableHlo.after hostOps0 (W0 m ρ c)))) (Proc.devRef .tc main_arg4) = _
  after_results_simp
  all_goals rfl

set_option maxHeartbeats 4000000 in
theorem W4_b2 : W4 m ρ c (Proc.devRef .tc main_arg6) = A6 m c := by
  show StableHlo.after hostOps0_3 (StableHlo.after hostOps0_2 (StableHlo.after hostOps0_1 (StableHlo.after hostOps0 (W0 m ρ c)))) (Proc.devRef .tc main_arg6) = _
  after_results_simp
  all_goals rfl

end Cert.KernelIdeal.Walk

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Region0.lean ====
/-
  Region 0 of the kernel program: the first layer's dense product h1 = x · W1.

  The grid has 20 points; point t reads rows [5000 t, 5000 (t+1)) of x (window 0), the whole 128 × 256 weight
  (window 1), and writes rows [5000 t, 5000 (t+1)) of the output (window 2). The body narrows the x block to bf16,
  which at the exact instance is the identity, and multiplies into a zero accumulator. No grid axis blocks the
  contraction, so every output entry is ONE sum over the 128 columns of its row of x:
      out (p, j) = ∑ k : Fin 128, x (p, k) * w (k, j).
  The 20 row blocks tile the 100000 rows, so the blocks' union is the whole array.
-/
import proofs.«424269_j11579231830106_3_alg».proof.Proof.Gen.KernelIdeal.Frame
import proofs.«424269_j11579231830106_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The x array as the region finds it. -/
abbrev xarr (c : Dev nD) : FVec Ideal S100000x128 .f32 := V c main_arg0
/-- The (bf16-typed) weight array as the region finds it. -/
abbrev warr (c : Dev nD) : FVec Ideal S128x256 .bf16 := V c main_v15
/-- The output array after the last grid point's write-back. -/
abbrev oarr (c : Dev nD) : FVec Ideal S100000x256 .f32 := (dat0 (F := Ideal) V c).arrAt 2 cfg0.N

/-- The product of an array of rows with the weight, entry by entry: row p, column j is the sum over the 128
    contracted columns. Stated for any number of rows, so the same function serves one block and the whole array. -/
def rowsTimes {n : ℕ} (X : FVec Ideal ⟨2, ![n, 128]⟩ .f32) (W : FVec Ideal S128x256 .bf16) : FVec Ideal ⟨2, ![n, 256]⟩ .f32 :=
  fun i => ∑ k : Fin 128, X (ix2 (i 0) k) * W (ix2 k (i 1))

theorem rowsTimes_apply {n : ℕ} (X : FVec Ideal ⟨2, ![n, 128]⟩ .f32) (W : FVec Ideal S128x256 .bf16) (p : Fin n) (j : Fin 256) :
    rowsTimes X W (ix2 p j) = ∑ k : Fin 128, X (ix2 p k) * W (ix2 k j) := rfl

/-- The body's arithmetic on one block of rows is that product of the block: narrowing to bf16 is the identity on
    extended reals, the cast to the same shape changes nothing, and a product into the zero accumulator is the
    plain sum over the contracted axis. -/
theorem blockProduct (x0 : FVec Ideal S5000x128 .f32) (w0 : FVec Ideal S128x256 .bf16) :
    k0_pay1 (F := Ideal) x0 w0 = rowsTimes x0 w0 := by
  funext y
  obtain ⟨q, j, rfl⟩ : ∃ (q : Fin 5000) (j : Fin 256), y = ix2 q j := ⟨y 0, y 1, eq_ix2 y⟩
  unfold k0_pay1
  rw [shapeCast_self]
  exact Cert.LibRowOps.prod_apply dot_S5000x128_S128x256_S5000x256_1_0_0_1_n_n rfl _ w0 q j (fun k => x0 (ix2 q k)) (fun k => rfl)

/-- The product of a block of rows that sits at row offset b of the whole array is the whole product read at the same
    offset: a row of the product only uses the same row of the left operand, and every block sees the whole weight. -/
theorem rowsTimes_block (X : FVec Ideal S100000x128 .f32) (W : FVec Ideal S128x256 .bf16)
    (x0 : FVec Ideal S5000x128 .f32) (w0 : FVec Ideal S128x256 .bf16) (b : ℕ)
    (hx : ∀ (q : Fin 5000) (k : Fin 128) (p : Fin 100000), p.val = b + q.val → x0 (ix2 q k) = X (ix2 p k))
    (hw : w0 = W) (y : S5000x256.Idx) (i : S100000x256.Idx)
    (h0 : (i 0).val = b + (y 0).val) (h1 : (i 1).val = (y 1).val) :
    rowsTimes x0 w0 y = rowsTimes X W i := by
  subst hw
  obtain ⟨q, j, rfl⟩ : ∃ (q : Fin 5000) (j : Fin 256), y = ix2 q j := ⟨y 0, y 1, eq_ix2 y⟩
  obtain ⟨p, j', rfl⟩ : ∃ (p : Fin 100000) (j' : Fin 256), i = ix2 p j' := ⟨i 0, i 1, eq_ix2 i⟩
  obtain rfl : j' = j := Fin.ext h1
  rw [rowsTimes_apply, rowsTimes_apply]
  exact Finset.sum_congr rfl fun k _ => by rw [hx q k p h0]

/-- The body's access rectangles start at the origin. -/
theorem zeroOffsets : (![0, 0] : Fin 2 → Nat) = fun _ => 0 := funext fun a => by fin_cases a <;> rfl

/-- The windows' block indices at each of the 20 grid points: the x window and the output window sit at row block t,
    column block 0; the weight window at block (0, 0). -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product: its x block is rows 5000 t onward of x, its weight
    block is the whole weight, and its output block sits at the same row offset 5000 t. -/
theorem flushed_rowsTimes (c : Dev nD) (t : Fin cfg0.N) :
    (dat0 (F := Ideal) V c).flushed 2 t = ((cfg0.win 2).blk t).view.read (Elt Ideal) (rowsTimes (xarr V c) (warr V c)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x256) zeroOffsets]
  rw [blockProduct]
  obtain ⟨e00, e01, e10, e11, e20, e21⟩ := blockIndices t
  funext y
  show rowsTimes (iblk0 V c 0 t) (iblk0 V c 1 t) y = rowsTimes (xarr V c) (warr V c) (((cfg0.win 2).blk t).view.emb y)
  refine rowsTimes_block _ _ _ _ (t.val * 5000) ?_ ?_ y _ ?_ ?_
  · intro q k p hp
    show V c main_arg0 (((cfg0.win 0).blk t).view.emb (ix2 q k)) = V c main_arg0 (ix2 p k)
    refine congrArg _ (funext fun a => Fin.ext ?_)
    match a with
    | ⟨0, _⟩ => show win0_0.index t (0 : Fin 2) * 5000 + 1 * q.val = p.val; omega
    | ⟨1, _⟩ => show win0_0.index t (1 : Fin 2) * 128 + 1 * k.val = k.val; omega
  · funext z
    show V c main_v15 (((cfg0.win 1).blk t).view.emb z) = V c main_v15 z
    refine congrArg _ (funext fun a => Fin.ext ?_)
    match a with
    | ⟨0, _⟩ => show win0_1.index t (0 : Fin 2) * 128 + 1 * (z 0).val = (z 0).val; omega
    | ⟨1, _⟩ => show win0_1.index t (1 : Fin 2) * 256 + 1 * (z 1).val = (z 1).val; omega
  · show win0_2.index t (0 : Fin 2) * 5000 + 1 * (y 0).val = t.val * 5000 + (y 0).val; omega
  · show win0_2.index t (1 : Fin 2) * 256 + 1 * (y 1).val = (y 1).val; omega

/-- An index of the output array is in point t's block iff each coordinate is in the block's range on its axis. -/
theorem mem_rowBlock (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v17).slice (win0_2.rect t)).set ↔ _
  rw [View.set_slice_whole, Rect.mem_set_unit]
  exact Iff.rfl

/-- Every row r of the output lies in the block of grid point r / 5000, and every point writes its block back. -/
theorem rowBlocks_cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  let t : Fin cfg0.N := ⟨(i 0).val / 5000, by rw [hN]; omega⟩
  obtain ⟨e00, e01, e10, e11, e20, e21⟩ := blockIndices t
  have ht : t.val = (i 0).val / 5000 := rfl
  refine ⟨t, flush0_2 t, ?_⟩
  rw [mem_rowBlock]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The output array after the region is the whole product: each point wrote its block of it, and the blocks cover
    the array. -/
theorem oarr_eq_rowsTimes (c : Dev nD) : oarr V c = rowsTimes (xarr V c) (warr V c) :=
  (dat0 (F := Ideal) V c).arrAt_eq_of_cover 2 (rowsTimes (xarr V c) (warr V c)) (fun t _ => flushed_rowsTimes V c t) rowBlocks_cover

/-- Every entry of the region's output is the row-by-column sum over the 128 contracted columns. -/
theorem final0 (c : Dev nD) (p : Fin 100000) (j : Fin 256) :
    oarr V c (ix2 p j) = ∑ k : Fin 128, xarr V c (ix2 p k) * warr V c (ix2 k j) := by
  rw [oarr_eq_rowsTimes]
  rfl

end Cert.KernelIdeal.Region0

end
-- ==== Proof.Walk1.lean ====
/-
  The kernel program from its first pallas_call to its second, read against the reference, stage by stage.

  The first region leaves h1 = x · W1 in its output array: every entry is the sum over the 128 columns (Region0),
  which is what the reference's dot_general is at the exact instance, and the narrowed weight it read is the weight
  itself there. Then the program takes the rows of h1 at the sources — at node numbers, the reference's gather —,
  scales row e by the edge coefficient of edge e, and scatter-adds the scaled rows into the destinations' rows of a
  zero array: the aggregated messages of layer 1, the reference's stage of the same operations. Beside them it lays
  the squared degree scale out as a column and the first bias as a row, for the second region to read.
-/
import proofs.«424269_j11579231830106_3_alg».proof.Proof.Walk0
import proofs.«424269_j11579231830106_3_alg».proof.Proof.Region0
import proofs.«424269_j11579231830106_3_alg».proof.Proof.LibRowOps

set_option maxRecDepth 16384

noncomputable section

namespace Cert.KernelIdeal.Walk

open Cert.KernelIdeal Cert.KernelIdeal.Gen Idealize.ShloMosaic Idealize.ShloMosaic.ValueIdx Idealize.ShloMosaic.TcCoe Idealize.SL.Sem Idealize.ShloMosaic.StableHlo
open Cert.IdxRange Cert.KernelIdeal.TakeLaw
open scoped BigOperators

variable (m : (ℓ : Loc nD τ sig) → Buf (Elt Ideal) ℓ) (ρ : Dev nD → PrngReg)

abbrev rV17 : TRef sig ⟨S100000x256, .f32⟩ := TRef.of main_v17
abbrev rV18 : TRef sig ⟨S640000x256, .f32⟩ := TRef.of main_v18

/-- The fill a take of 256-wide rows writes where its mask is clear. -/
abbrev fill256 : FVec Ideal S640000x256 .f32 := broadcastInDim S640000x256 ![] bcast_S_S640000x256 (constant (F := Ideal) S_ .f32 0x7FC00000#32)

/-! ## The stretches, from arbitrary contents before them -/

section AnyContents

variable (V : Valuation τ sig (Elt Ideal))

set_option maxHeartbeats 4000000 in
/-- The take of the rows of h1 at the sources. -/
theorem take_h1_src :
    StableHlo.after hostOps1 V (Proc.devRef .tc main_v18)
      = rV18.toBuf (select (broadcastInDim S640000x256 ![0] bcast_S640000_S640000x256_0 (inBounds (rV1.ofBuf (V (Proc.devRef .tc main_v1)))))
          (Host.gather gather_S100000x256_S640000x1_S640000x256_1_0_n_n_0_1_1256 (rV17.ofBuf (V (Proc.devRef .tc main_v17)))
            (startCol (rV1.ofBuf (V (Proc.devRef .tc main_v1)))))
          fill256) := by
  after_results_simp
  simp only [ofBuf_toBuf]
  rfl

set_option maxHeartbeats 4000000 in
/-- That take leaves the destinations and the edge coefficient as they were. -/
theorem take_h1_src_keeps :
    StableHlo.after hostOps1 V (Proc.devRef .tc main_v3) = V (Proc.devRef .tc main_v3)
    ∧ StableHlo.after hostOps1 V (Proc.devRef .tc main_v13) = V (Proc.devRef .tc main_v13) := by
  constructor <;> after_results_simp

/-- The aggregated messages: the taken rows, each scaled by its edge's coefficient, scatter-added into the
    destinations' rows of a zero array. -/
theorem agg1_of :
    (StableHlo.after hostOps1_1 V (Proc.devRef .tc main_v24) : FVec Ideal S100000x256 .f32)
      = Host.scatterAdd scatter_S100000x256_S640000x1_S640000x256_1_0_0_1
          (broadcastInDim S100000x256 ![] bcast_S_S100000x256 (constant (F := Ideal) S_ .f32 0x00000000#32))
          (broadcastInDim S640000x1 ![0] bcast_S640000_S640000x1_0 (V (Proc.devRef .tc main_v3) : IVec S640000 32))
          (mulf (F := Ideal) (s := S640000x256) (φ := .f32) (V (Proc.devRef .tc main_v18))
            (broadcastInDim S640000x256 ![0, 1] bcast_S640000x1_S640000x256_0_1
              (broadcastInDim S640000x1 ![0] bcast_S640000_S640000x1_0 (V (Proc.devRef .tc main_v13) : FVec Ideal S640000 .f32)))) := by
  after_results
  all_goals rfl

end AnyContents

/-! ## This run's contents -/

variable (c : Dev nD)

/-- The first region's output is the reference's product x · W1. -/
theorem W5_h1 : W5 m ρ c (Proc.devRef .tc main_v17) = Cert.ReferenceIdeal.Read.val_main_v11 (F := Ideal) (A0 m c) (A3 m c) := by
  refine (W5_arr m ρ c 2).trans ?_
  show Region0.oarr (V4 m ρ) c = _
  funext i
  obtain ⟨p, j, rfl⟩ : ∃ (p : Fin 100000) (j : Fin 256), i = ix2 p j := ⟨i 0, i 1, eq_ix2 i⟩
  refine (Region0.final0 (V4 m ρ) c p j).trans ?_
  refine (Finset.sum_congr rfl fun k _ => ?_).trans
    (Cert.LibRowOps.dotGeneral_plain_apply Cert.ReferenceIdeal.dot_S100000x128_S128x256_S100000x256_1_0_0_1_n_n rfl none (A0 m c) (A3 m c) p j).symm
  rw [show Region0.xarr (V4 m ρ) c (ix2 p k) = A0 m c (ix2 p k) from congrFun (W4_x m ρ c) _,
    show Region0.warr (V4 m ρ) c (ix2 k j) = A3 m c (ix2 k j) from congrFun (W4_w1 m ρ c) _]

/-- The first region writes its output array only: every other buffer is as it was at the region's entry. -/
theorem W5_src : W5 m ρ c (Proc.devRef .tc main_v1) = srcR m c := (W5_of_ne m ρ c main_v1 (by decide)).trans (W4_src m ρ c)
theorem W5_dst : W5 m ρ c (Proc.devRef .tc main_v3) = dstR m c := (W5_of_ne m ρ c main_v3 (by decide)).trans (W4_dst m ρ c)
theorem W5_coef (hN : ∀ i : S2x640000.Idx, IsNode (A1 m c i)) : W5 m ρ c (Proc.devRef .tc main_v13) = Cert.ReferenceIdeal.Read.val_main_v26 (F := Ideal) (A1 m c) :=
  (W5_of_ne m ρ c main_v13 (by decide)).trans (W4_coef m ρ c hN)
theorem W5_scale2 : W5 m ρ c (Proc.devRef .tc main_v14) = Cert.ReferenceIdeal.Read.val_main_v40 (F := Ideal) (A1 m c) := (W5_of_ne m ρ c main_v14 (by decide)).trans (W4_scale2 m ρ c)
theorem W5_w2 : W5 m ρ c (Proc.devRef .tc main_v16) = truncf .bf16 (A5 m c) bitsLt_bf16_f32 := (W5_of_ne m ρ c main_v16 (by decide)).trans (W4_w2 m ρ c)
theorem W5_batch : W5 m ρ c (Proc.devRef .tc main_arg2) = A2 m c := (W5_of_ne m ρ c main_arg2 (by decide)).trans (W4_batch m ρ c)
theorem W5_b1 : W5 m ρ c (Proc.devRef .tc main_arg4) = A4 m c := (W5_of_ne m ρ c main_arg4 (by decide)).trans (W4_b1 m ρ c)
theorem W5_b2 : W5 m ρ c (Proc.devRef .tc main_arg6) = A6 m c := (W5_of_ne m ρ c main_arg6 (by decide)).trans (W4_b2 m ρ c)

/-- The rows of h1 taken at the sources are the reference's gather of them. -/
theorem W6_take_h1 (hN : ∀ i : S2x640000.Idx, IsNode (A1 m c i)) :
    W6 m ρ c (Proc.devRef .tc main_v18) = Cert.ReferenceIdeal.Read.val_main_v33 (F := Ideal) (A0 m c) (A1 m c) (A3 m c) := by
  refine (take_h1_src (W5 m ρ c)).trans ?_
  rw [ofBuf_eq_of rV1 (W5 m ρ c (Proc.devRef .tc main_v1)) (srcR m c) (heq_of_eq (W5_src m ρ c)),
    ofBuf_eq_of rV17 (W5 m ρ c (Proc.devRef .tc main_v17)) (Cert.ReferenceIdeal.Read.val_main_v11 (F := Ideal) (A0 m c) (A3 m c)) (heq_of_eq (W5_h1 m ρ c)),
    take256_eq (F := Ideal) (Cert.ReferenceIdeal.Read.val_main_v11 (F := Ideal) (A0 m c) (A3 m c)) (srcR m c) (srcR_isNode m c hN)]
  exact toBuf_eq_of rV18 _ _ (heq_of_eq rfl)

/-- At the second region's entry: the aggregated messages of layer 1 are the reference's. -/
theorem W7_agg1 (hN : ∀ i : S2x640000.Idx, IsNode (A1 m c i)) :
    W7 m ρ c (Proc.devRef .tc main_v24) = Cert.ReferenceIdeal.Read.val_main_v39 (F := Ideal) (A0 m c) (A1 m c) (A3 m c) := by
  refine (agg1_of (W6 m ρ c)).trans ?_
  rw [show W6 m ρ c (Proc.devRef .tc main_v3) = dstR m c from ((take_h1_src_keeps (W5 m ρ c)).1).trans (W5_dst m ρ c),
    show W6 m ρ c (Proc.devRef .tc main_v13) = Cert.ReferenceIdeal.Read.val_main_v26 (F := Ideal) (A1 m c) from ((take_h1_src_keeps (W5 m ρ c)).2).trans (W5_coef m ρ c hN),
    W6_take_h1 m ρ c hN]
  rfl

set_option maxHeartbeats 4000000 in
theorem W7_h1 : W7 m ρ c (Proc.devRef .tc main_v17) = Cert.ReferenceIdeal.Read.val_main_v11 (F := Ideal) (A0 m c) (A3 m c) := by
  show StableHlo.after hostOps1_1 (StableHlo.after hostOps1 (W5 m ρ c)) (Proc.devRef .tc main_v17) = _
  after_results_simp
  exact W5_h1 m ρ c

set_option maxHeartbeats 4000000 in
theorem W7_w2 : W7 m ρ c (Proc.devRef .tc main_v16) = truncf .bf16 (A5 m c) bitsLt_bf16_f32 := by
  show StableHlo.after hostOps1_1 (StableHlo.after hostOps1 (W5 m ρ c)) (Proc.devRef .tc main_v16) = _
  after_results_simp
  exact W5_w2 m ρ c

set_option maxHeartbeats 4000000 in
theorem W7_src : W7 m ρ c (Proc.devRef .tc main_v1) = srcR m c := by
  show StableHlo.after hostOps1_1 (StableHlo.after hostOps1 (W5 m ρ c)) (Proc.devRef .tc main_v1) = _
  after_results_simp
  exact W5_src m ρ c

set_option maxHeartbeats 4000000 in
theorem W7_dst : W7 m ρ c (Proc.devRef .tc main_v3) = dstR m c := by
  show StableHlo.after hostOps1_1 (StableHlo.after hostOps1 (W5 m ρ c)) (Proc.devRef .tc main_v3) = _
  after_results_simp
  exact W5_dst m ρ c

set_option maxHeartbeats 4000000 in
theorem W7_scale2 : W7 m ρ c (Proc.devRef .tc main_v14) = Cert.ReferenceIdeal.Read.val_main_v40 (F := Ideal) (A1 m c) := by
  show StableHlo.after hostOps1_1 (StableHlo.after hostOps1 (W5 m ρ c)) (Proc.devRef .tc main_v14) = _
  after_results_simp
  exact W5_scale2 m ρ c

set_option maxHeartbeats 4000000 in
theorem W7_batch : W7 m ρ c (Proc.devRef .tc main_arg2) = A2 m c := by
  show StableHlo.after hostOps1_1 (StableHlo.after hostOps1 (W5 m ρ c)) (Proc.devRef .tc main_arg2) = _
  after_results_simp
  exact W5_batch m ρ c

set_option maxHeartbeats 4000000 in
theorem W7_b2 : W7 m ρ c (Proc.devRef .tc main_arg6) = A6 m c := by
  show StableHlo.after hostOps1_1 (StableHlo.after hostOps1 (W5 m ρ c)) (Proc.devRef .tc main_arg6) = _
  after_results_simp
  exact W5_b2 m ρ c

set_option maxHeartbeats 4000000 in
theorem W7_coef (hN : ∀ i : S2x640000.Idx, IsNode (A1 m c i)) : W7 m ρ c (Proc.devRef .tc main_v13) = Cert.ReferenceIdeal.Read.val_main_v26 (F := Ideal) (A1 m c) := by
  show StableHlo.after hostOps1_1 (StableHlo.after hostOps1 (W5 m ρ c)) (Proc.devRef .tc main_v13) = _
  after_results_simp
  exact W5_coef m ρ c hN

set_option maxHeartbeats 4000000 in
/-- The squared degree scale, laid out as a column for the second region. -/
theorem W7_scol : (W7 m ρ c (Proc.devRef .tc main_v25) : FVec Ideal S100000x1 .f32)
    = shapeCast S100000x1 (Cert.ReferenceIdeal.Read.val_main_v40 (F := Ideal) (A1 m c) : FVec Ideal S100000 .f32) shapeCasts_S100000_S100000x1 := by
  show StableHlo.after hostOps1_1 (StableHlo.after hostOps1 (W5 m ρ c)) (Proc.devRef .tc main_v25) = _
  after_results_simp
  rw [W5_scale2 m ρ c]
  rfl

set_option maxHeartbeats 4000000 in
/-- The first bias, laid out as a row for the second region. -/
theorem W7_b1row : (W7 m ρ c (Proc.devRef .tc main_v26) : FVec Ideal S1x256 .f32)
    = shapeCast S1x256 (A4 m c) shapeCasts_S256_S1x256 := by
  show StableHlo.after hostOps1_1 (StableHlo.after hostOps1 (W5 m ρ c)) (Proc.devRef .tc main_v26) = _
  after_results_simp
  rw [W5_b1 m ρ c]
  rfl

end Cert.KernelIdeal.Walk

end
-- ==== Proof.Region1.lean ====
/-
  Region 1 of the kernel program: the first layer's finalize step fused with the second layer's dense product,
      h2 = relu ((agg1 + h1 * s) + b1) · W2.

  The grid has 50 points; point t reads rows [2000 t, 2000 (t+1)) of agg1 (window 0), of h1 (window 1) and of the
  column s (window 2, 100000 × 1), the whole bias row b1 (window 3, 1 × 256) and the whole 256 × 128 weight (window 4),
  and writes rows [2000 t, 2000 (t+1)) of the output (window 5). In the body the column s is broadcast along each
  row, the bias row down each column, the maximum with zero is taken entry by entry, the result is narrowed to bf16
  (the identity at the exact instance) and multiplied into a zero accumulator. The contraction is not blocked, so
      out (p, j) = ∑ k : Fin 256, max ((agg (p, k) + h (p, k) * s (p, 0)) + b (0, k)) 0 * w (k, j).
  The 50 row blocks tile the 100000 rows.
-/
import proofs.«424269_j11579231830106_3_alg».proof.Proof.Gen.KernelIdeal.Frame
import proofs.«424269_j11579231830106_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The aggregated messages of layer 1 as the region finds them. -/
abbrev aggarr (c : Dev nD) : FVec Ideal S100000x256 .f32 := V c main_v24
/-- The layer-1 product h1 as the region finds it. -/
abbrev harr (c : Dev nD) : FVec Ideal S100000x256 .f32 := V c main_v17
/-- The self-loop scale, one entry per node, kept as a column. -/
abbrev sarr (c : Dev nD) : FVec Ideal S100000x1 .f32 := V c main_v25
/-- The layer-1 bias, kept as a row. -/
abbrev barr (c : Dev nD) : FVec Ideal S1x256 .f32 := V c main_v26
/-- The (bf16-typed) layer-2 weight. -/
abbrev warr (c : Dev nD) : FVec Ideal S256x128 .bf16 := V c main_v16
/-- The output array after the last grid point's write-back. -/
abbrev oarr (c : Dev nD) : FVec Ideal S100000x128 .f32 := (dat1 (F := Ideal) V c).arrAt 5 cfg1.N

/-! ## The body's arithmetic at an index -/

/-- A column `[a, 1]` broadcast along each row to `[a, b]` reads, at `(p, c)`, the column's entry in row `p`. -/
theorem colBcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The rectified finalize entry: `max ((agg + h * s) + b) 0`, from the four numbers it is made of. -/
def relu1 (g h s b : EReal) : EReal := max ((g + h * s) + b) 0

/-- The left operand of the block's product, at row `q` and column `k`: the rectified finalize entry of the
    block's row `q` — the column `s` read at `(q, 0)`, the bias row at `(0, k)`. -/
theorem lhs_apply (g h : FVec Ideal S2000x256 .f32) (s : FVec Ideal S2000x1 .f32) (b : FVec Ideal S1x256 .f32)
    (q : Fin 2000) (k : Fin 256) :
    (truncf .bf16 (maximumf (addf (addf g (mulf h (broadcastTo S2000x256 s broadcasts_S2000x1_S2000x256)))
        (broadcastTo S2000x256 b broadcasts_S1x256_S2000x256)) (broadcast S2000x256 (Scalar.ofBits .f32 0x00000000#32)))
      bitsLt_bf16_f32 : FVec Ideal S2000x256 .bf16) (ix2 q k)
      = relu1 (g (ix2 q k)) (h (ix2 q k)) (s (ix2 q 0)) (b (ix2 0 k)) := by
  rw [truncf_apply, maximumf_apply, addf_apply, addf_apply, mulf_apply, broadcast_apply,
    colBcast_apply s broadcasts_S2000x1_S2000x256 q k, broadcastTo_1b_ab_apply b broadcasts_S1x256_S2000x256 q k]
  show max _ (Ideal.ofBits .f32 0x00000000#32) = _
  rw [Ideal.ofBits_zero_f32]
  rfl

/-- The body's payload at row `q`, column `j` of the block: the rectified finalize row `q` against column `j` of
    the weight. -/
theorem pay_apply (g h : FVec Ideal S2000x256 .f32) (s : FVec Ideal S2000x1 .f32) (b : FVec Ideal S1x256 .f32)
    (w : FVec Ideal S256x128 .bf16) (q : Fin 2000) (j : Fin 128) :
    k1_pay1 (F := Ideal) g h s b w (ix2 q j)
      = ∑ k : Fin 256, relu1 (g (ix2 q k)) (h (ix2 q k)) (s (ix2 q 0)) (b (ix2 0 k)) * w (ix2 k j) := by
  unfold k1_pay1
  simp only [shapeCast_self]
  exact LibRowOps.prod_apply _ rfl _ w q j _ (fun k => lhs_apply g h s b q k)

/-! ## From the blocks to the array -/

/-- One entry of the region's result: row `p` of the rectified finalize matrix against column `j` of the weight. -/
def outAt (g h : FVec Ideal S100000x256 .f32) (s : FVec Ideal S100000x1 .f32) (b : FVec Ideal S1x256 .f32)
    (w : FVec Ideal S256x128 .bf16) (p : Fin 100000) (j : Fin 128) : EReal :=
  ∑ k : Fin 256, relu1 (g (ix2 p k)) (h (ix2 p k)) (s (ix2 p 0)) (b (ix2 0 k)) * w (ix2 k j)

/-- The region's whole result as ONE function of the five arrays it reads. -/
def layerOut (g h : FVec Ideal S100000x256 .f32) (s : FVec Ideal S100000x1 .f32) (b : FVec Ideal S1x256 .f32)
    (w : FVec Ideal S256x128 .bf16) : FVec Ideal S100000x128 .f32 := fun i => outAt g h s b w (i 0) (i 1)

/-- Every access of the body starts at the block's corner. -/
theorem corner : (![0, 0] : Fin 2 → Nat) = fun _ => 0 := funext fun a => by fin_cases a <;> rfl

/-- The printed index maps over the 50 grid points: the three row-blocked inputs and the output sit at block
    `(t, 0)`, the bias row and the weight at block `(0, 0)`. -/
theorem blockIdx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `q` of point `t`'s block of the aggregated messages is row `2000 t + q` of the array. -/
theorem aggblk_apply (c : Dev nD) (t : Fin cfg1.N) (q : Fin 2000) (k : Fin 256) (p : Fin 100000)
    (hp : p.val = t.val * 2000 + q.val) :
    (iblk1 (F := Ideal) V c 0 t : FVec Ideal S2000x256 .f32) (ix2 q k) = aggarr V c (ix2 p k) := by
  obtain ⟨e0, e1, -⟩ := blockIdx t
  show V c main_v24 (((cfg1.win 0).blk t).view.emb (ix2 q k)) = V c main_v24 (ix2 p k)
  have e : ((cfg1.win 0).blk t).view.emb (ix2 q k) = ix2 p k := by
    funext a; apply Fin.ext
    match a with
    | ⟨0, _⟩ => show win1_0.index t (0 : Fin 2) * 2000 + 1 * q.val = p.val; omega
    | ⟨1, _⟩ => show win1_0.index t (1 : Fin 2) * 256 + 1 * k.val = k.val; omega
  rw [e]

/-- Row `q` of point `t`'s block of the layer-1 product is row `2000 t + q` of the array. -/
theorem hblk_apply (c : Dev nD) (t : Fin cfg1.N) (q : Fin 2000) (k : Fin 256) (p : Fin 100000)
    (hp : p.val = t.val * 2000 + q.val) :
    (iblk1 (F := Ideal) V c 1 t : FVec Ideal S2000x256 .f32) (ix2 q k) = harr V c (ix2 p k) := by
  obtain ⟨-, -, e0, e1, -⟩ := blockIdx t
  show V c main_v17 (((cfg1.win 1).blk t).view.emb (ix2 q k)) = V c main_v17 (ix2 p k)
  have e : ((cfg1.win 1).blk t).view.emb (ix2 q k) = ix2 p k := by
    funext a; apply Fin.ext
    match a with
    | ⟨0, _⟩ => show win1_1.index t (0 : Fin 2) * 2000 + 1 * q.val = p.val; omega
    | ⟨1, _⟩ => show win1_1.index t (1 : Fin 2) * 256 + 1 * k.val = k.val; omega
  rw [e]

/-- Entry `q` of point `t`'s block of the scale column is entry `2000 t + q` of the column. -/
theorem sblk_apply (c : Dev nD) (t : Fin cfg1.N) (q : Fin 2000) (p : Fin 100000)
    (hp : p.val = t.val * 2000 + q.val) :
    (iblk1 (F := Ideal) V c 2 t : FVec Ideal S2000x1 .f32) (ix2 q 0) = sarr V c (ix2 p 0) := by
  obtain ⟨-, -, -, -, e0, e1, -⟩ := blockIdx t
  show V c main_v25 (((cfg1.win 2).blk t).view.emb (ix2 q 0)) = V c main_v25 (ix2 p 0)
  have e : ((cfg1.win 2).blk t).view.emb (ix2 q (0 : Fin 1)) = ix2 p (0 : Fin 1) := by
    funext a; apply Fin.ext
    match a with
    | ⟨0, _⟩ => show win1_2.index t (0 : Fin 2) * 2000 + 1 * q.val = p.val; omega
    | ⟨1, _⟩ => show win1_2.index t (1 : Fin 2) * 1 + 1 * 0 = 0; omega
  rw [e]

/-- Every point's block of the bias row is the whole row. -/
theorem bblk_apply (c : Dev nD) (t : Fin cfg1.N) (k : Fin 256) :
    (iblk1 (F := Ideal) V c 3 t : FVec Ideal S1x256 .f32) (ix2 0 k) = barr V c (ix2 0 k) := by
  obtain ⟨-, -, -, -, -, -, e0, e1, -⟩ := blockIdx t
  show V c main_v26 (((cfg1.win 3).blk t).view.emb (ix2 0 k)) = V c main_v26 (ix2 0 k)
  have e : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 256 + 1 * k.val = k.val; omega
  rw [e]

/-- Every point's block of the weight is the whole weight. -/
theorem wblk_apply (c : Dev nD) (t : Fin cfg1.N) (k : Fin 256) (j : Fin 128) :
    (iblk1 (F := Ideal) V c 4 t : FVec Ideal S256x128 .bf16) (ix2 k j) = warr V c (ix2 k j) := by
  obtain ⟨-, -, -, -, -, -, -, -, e0, e1, -⟩ := blockIdx t
  show V c main_v16 (((cfg1.win 4).blk t).view.emb (ix2 k j)) = V c main_v16 (ix2 k j)
  have e : ((cfg1.win 4).blk t).view.emb (ix2 k j) = ix2 k j := by
    funext a; apply Fin.ext
    match a with
    | ⟨0, _⟩ => show win1_4.index t (0 : Fin 2) * 256 + 1 * k.val = k.val; omega
    | ⟨1, _⟩ => show win1_4.index t (1 : Fin 2) * 128 + 1 * j.val = j.val; omega
  rw [e]

/-- What the body computes from point `t`'s blocks, at row `q` and column `j`, is the result's entry at row
    `2000 t + q` and column `j`: the contraction runs over whole rows and whole columns, so nothing but the row moves. -/
theorem outblk_apply (c : Dev nD) (t : Fin cfg1.N) (q : Fin 2000) (j : Fin 128) (p : Fin 100000)
    (hp : p.val = t.val * 2000 + q.val) :
    k1_pay1 (F := Ideal) (iblk1 V c 0 t) (iblk1 V c 1 t) (iblk1 V c 2 t) (iblk1 V c 3 t) (iblk1 V c 4 t) (ix2 q j)
      = outAt (aggarr V c) (harr V c) (sarr V c) (barr V c) (warr V c) p j := by
  refine (pay_apply (iblk1 V c 0 t) (iblk1 V c 1 t) (iblk1 V c 2 t) (iblk1 V c 3 t) (iblk1 V c 4 t) q j).trans ?_
  unfold outAt
  refine Finset.sum_congr rfl fun k _ => ?_
  rw [aggblk_apply V c t q k p hp, hblk_apply V c t q k p hp, sblk_apply V c t q p hp, bblk_apply V c t k,
    wblk_apply V c t k j]

/-- What point `t` writes back is block `t` of the result. -/
theorem flushed_eq (c : Dev nD) (t : Fin cfg1.N) :
    (dat1 (F := Ideal) V c).flushed 5 t
      = ((cfg1.win 5).blk t).view.read (Elt Ideal) (layerOut (aggarr V c) (harr V c) (sarr V c) (barr V c) (warr V c)) := by
  show (cfg1.win 5).cut (grid1.coords t) ((dat1 (F := Ideal) V c).after 5 t) = _
  rw [after1_5]
  unfold out1_5
  rw [View.canon_unit_zero corner]
  simp only [View.ld_unit_zero (S := S2000x256) corner, View.ld_unit_zero (S := S2000x1) corner,
    View.ld_unit_zero (S := S1x256) corner, View.ld_unit_zero (S := S256x128) corner]
  funext y
  obtain ⟨q, j, rfl⟩ : ∃ (q : Fin 2000) (j : Fin 128), y = ix2 q j := ⟨y 0, y 1, eq_ix2 y⟩
  obtain ⟨-, -, -, -, -, -, -, -, -, -, o0, o1⟩ := blockIdx t
  have hp : (((cfg1.win 5).blk t).view.emb (ix2 q j) 0).val = t.val * 2000 + q.val := by
    show win1_5.index t (0 : Fin 2) * 2000 + 1 * q.val = _; omega
  have hj : ((cfg1.win 5).blk t).view.emb (ix2 q j) 1 = j :=
    Fin.ext (by show win1_5.index t (1 : Fin 2) * 128 + 1 * j.val = j.val; omega)
  exact (outblk_apply V c t q j (((cfg1.win 5).blk t).view.emb (ix2 q j) 0) hp).trans
    (congrArg (outAt (aggarr V c) (harr V c) (sarr V c) (barr V c) (warr V c) _) hj.symm)

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v27).slice (win1_5.rect t)).set ↔ _
  rw [View.set_slice_whole, Rect.mem_set_unit]
  exact Iff.rfl

/-- The 50 row blocks tile the 100000 rows: row `r` is in the block of point `r / 2000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 :=
    ⟨⟨(i 0).val / 2000, lt_of_lt_of_eq (by omega) hN.symm⟩, rfl⟩
  obtain ⟨-, -, -, -, -, -, -, -, -, -, o0, o1⟩ := blockIdx t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The output array after the last write-back is the result, whole. -/
theorem oarr_eq (c : Dev nD) :
    oarr V c = layerOut (aggarr V c) (harr V c) (sarr V c) (barr V c) (warr V c) :=
  (dat1 (F := Ideal) V c).arrAt_eq_of_cover 5 _ (fun t _ => flushed_eq V c t) covered

/-- Every entry of the region's output: the rectified finalize row against a column of the weight. -/
theorem final1 (c : Dev nD) (p : Fin 100000) (j : Fin 128) :
    oarr V c (ix2 p j)
      = ∑ k : Fin 256, max ((aggarr V c (ix2 p k) + harr V c (ix2 p k) * sarr V c (ix2 p 0)) + barr V c (ix2 0 k)) 0 * warr V c (ix2 k j) := by
  rw [oarr_eq]
  rfl

end Cert.KernelIdeal.Region1

end
-- ==== Proof.Walk2.lean ====
/-
  The kernel program from its second pallas_call to its third, read against the reference, stage by stage.

  The second region leaves h2 = relu ((agg1 + h1 * s) + b1) · W2 in its output array (Region1): entry (p, j) is the
  sum over k of the rectified finalize value at (p, k) times the weight at (k, j). The reference reaches the same
  number by its own spelling — the squared scale broadcast from a vector through a column to the full array, the bias
  from a vector through a row, a maximum against a broadcast zero, then a dot_general —, and read at an index each of
  those broadcasts picks the same entry the region's column and row do. Then the program takes the rows of h2 at the
  sources, scales them by the edge coefficient and scatter-adds them into the destinations' rows: the aggregated
  messages of layer 2. The reference recomputes the degree scale for its second layer by the same operations on the
  same edge list, so its second scale, coefficient and squared scale are its first.
-/
import proofs.«424269_j11579231830106_3_alg».proof.Proof.Walk1
import proofs.«424269_j11579231830106_3_alg».proof.Proof.Region1

set_option maxRecDepth 16384

noncomputable section

namespace Cert.KernelIdeal.Walk

open Cert.KernelIdeal Cert.KernelIdeal.Gen Idealize.ShloMosaic Idealize.ShloMosaic.ValueIdx Idealize.ShloMosaic.TcCoe Idealize.SL.Sem Idealize.ShloMosaic.StableHlo
open Cert.IdxRange Cert.KernelIdeal.TakeLaw
open scoped BigOperators

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The reference's second layer recomputes the first layer's edge quantities -/

section Reference

open Cert.ReferenceIdeal.Read

variable (x0 : FVec Ideal Cert.ReferenceIdeal.S100000x128 .f32) (x1 : IVec Cert.ReferenceIdeal.S2x640000 32)
  (x3 : FVec Ideal Cert.ReferenceIdeal.S128x256 .f32) (x4 : FVec Ideal Cert.ReferenceIdeal.S256 .f32)
  (x5 : FVec Ideal Cert.ReferenceIdeal.S256x128 .f32) (x6 : FVec Ideal Cert.ReferenceIdeal.S128 .f32)

/-- The second layer's degree scale, edge coefficient and squared scale are the first layer's: the same operations
    on the same edge list. -/
theorem scale_again : val_main_v55 (F := Ideal) x1 = val_main_v10 (F := Ideal) x1 := rfl
theorem coef_again : val_main_v71 (F := Ideal) x1 = val_main_v26 (F := Ideal) x1 := rfl
theorem scale2_again : val_main_v85 (F := Ideal) x1 = val_main_v40 (F := Ideal) x1 := rfl

/-- The reference's rectified first-layer value at (p, k): the aggregate plus the self-loop term plus the bias,
    against zero. -/
theorem ref_fin1_apply (p : Fin 100000) (k : Fin 256) :
    val_main_v48 (F := Ideal) x0 x1 x3 x4 (ix2 p k)
      = max ((val_main_v39 (F := Ideal) x0 x1 x3 (ix2 p k) + val_main_v11 (F := Ideal) x0 x3 (ix2 p k) * val_main_v40 (F := Ideal) x1 (ix1 p))
          + x4 (ix1 k)) 0 := by
  rw [val_main_v48_apply, val_main_v47_apply, val_main_v44_apply, val_main_v43_apply, val_main_v42_apply, val_main_v41_apply,
    val_main_v46_apply, val_main_v45_apply, val_main_call0_v0_apply, val_main_call0_cst_apply]
  have e1 : idx_main_v41 (idx_main_v42 (ix2 p k)) = ix1 p := funext fun a => Fin.ext (by match a with | ⟨0, _⟩ => rfl)
  have e2 : idx_main_v45 (idx_main_v46 (ix2 p k)) = ix1 k := funext fun a => Fin.ext (by match a with | ⟨0, _⟩ => rfl)
  rw [e1, e2]
  simp only [Ideal.maximumf_def, Ideal.addf_def, Ideal.mulf_def, Ideal.ofBits_def, Ideal.ofBits_zero_f32]

end Reference

variable (m : (ℓ : Loc nD τ sig) → Buf (Elt Ideal) ℓ) (ρ : Dev nD → PrngReg)

abbrev rV27 : TRef sig ⟨S100000x128, .f32⟩ := TRef.of main_v27
abbrev rV28 : TRef sig ⟨S640000x128, .f32⟩ := TRef.of main_v28

/-- The fill a take of 128-wide rows writes where its mask is clear. -/
abbrev fill128 : FVec Ideal S640000x128 .f32 := broadcastInDim S640000x128 ![] bcast_S_S640000x128 (constant (F := Ideal) S_ .f32 0x7FC00000#32)

/-! ## The stretches, from arbitrary contents before them -/

section AnyContents

variable (V : Valuation τ sig (Elt Ideal))

set_option maxHeartbeats 4000000 in
/-- The take of the rows of h2 at the sources. -/
theorem take_h2_src :
    StableHlo.after hostOps2 V (Proc.devRef .tc main_v28)
      = rV28.toBuf (select (broadcastInDim S640000x128 ![0] bcast_S640000_S640000x128_0 (inBounds (rV1.ofBuf (V (Proc.devRef .tc main_v1)))))
          (Host.gather gather_S100000x128_S640000x1_S640000x128_1_0_n_n_0_1_1128 (rV27.ofBuf (V (Proc.devRef .tc main_v27)))
            (startCol (rV1.ofBuf (V (Proc.devRef .tc main_v1)))))
          fill128) := by
  after_results_simp
  simp only [ofBuf_toBuf]
  rfl

set_option maxHeartbeats 4000000 in
/-- That take leaves the destinations and the edge coefficient as they were. -/
theorem take_h2_src_keeps :
    StableHlo.after hostOps2 V (Proc.devRef .tc main_v3) = V (Proc.devRef .tc main_v3)
    ∧ StableHlo.after hostOps2 V (Proc.devRef .tc main_v13) = V (Proc.devRef .tc main_v13) := by
  constructor <;> after_results_simp

/-- The aggregated messages of layer 2. -/
theorem agg2_of :
    (StableHlo.after hostOps2_1 V (Proc.devRef .tc main_v34) : FVec Ideal S100000x128 .f32)
      = Host.scatterAdd scatter_S100000x128_S640000x1_S640000x128_1_0_0_1
          (broadcastInDim S100000x128 ![] bcast_S_S100000x128 (constant (F := Ideal) S_ .f32 0x00000000#32))
          (broadcastInDim S640000x1 ![0] bcast_S640000_S640000x1_0 (V (Proc.devRef .tc main_v3) : IVec S640000 32))
          (mulf (F := Ideal) (s := S640000x128) (φ := .f32) (V (Proc.devRef .tc main_v28))
            (broadcastInDim S640000x128 ![0, 1] bcast_S640000x1_S640000x128_0_1
              (broadcastInDim S640000x1 ![0] bcast_S640000_S640000x1_0 (V (Proc.devRef .tc main_v13) : FVec Ideal S640000 .f32)))) := by
  after_results
  all_goals rfl

end AnyContents

/-! ## This run's contents -/

variable (c : Dev nD)

/-- The second region's output is the reference's product relu (…) · W2. -/
theorem W8_h2 (hN : ∀ i : S2x640000.Idx, IsNode (A1 m c i)) :
    W8 m ρ c (Proc.devRef .tc main_v27) = Cert.ReferenceIdeal.Read.val_main_v56 (F := Ideal) (A0 m c) (A1 m c) (A3 m c) (A4 m c) (A5 m c) := by
  refine (W8_arr m ρ c 5).trans ?_
  show Region1.oarr (V7 m ρ) c = _
  funext i
  obtain ⟨p, j, rfl⟩ : ∃ (p : Fin 100000) (j : Fin 128), i = ix2 p j := ⟨i 0, i 1, eq_ix2 i⟩
  refine (Region1.final1 (V7 m ρ) c p j).trans ?_
  refine (Finset.sum_congr rfl fun k _ => ?_).trans
    (Cert.LibRowOps.dotGeneral_plain_apply Cert.ReferenceIdeal.dot_S100000x256_S256x128_S100000x128_1_0_0_1_n_n rfl none
      (Cert.ReferenceIdeal.Read.val_main_v48 (F := Ideal) (A0 m c) (A1 m c) (A3 m c) (A4 m c)) (A5 m c) p j).symm
  rw [show Region1.aggarr (V7 m ρ) c (ix2 p k) = Cert.ReferenceIdeal.Read.val_main_v39 (F := Ideal) (A0 m c) (A1 m c) (A3 m c) (ix2 p k) from congrFun (W7_agg1 m ρ c hN) _,
    show Region1.harr (V7 m ρ) c (ix2 p k) = Cert.ReferenceIdeal.Read.val_main_v11 (F := Ideal) (A0 m c) (A3 m c) (ix2 p k) from congrFun (W7_h1 m ρ c) _,
    show Region1.sarr (V7 m ρ) c (ix2 p 0) = Cert.ReferenceIdeal.Read.val_main_v40 (F := Ideal) (A1 m c) (ix1 p) from
      (congrFun (W7_scol m ρ c) _).trans (shapeCast_a_a1_apply _ _ p 0),
    show Region1.barr (V7 m ρ) c (ix2 0 k) = A4 m c (ix1 k) from
      (congrFun (W7_b1row m ρ c) _).trans (shapeCast_a_1a_apply _ _ 0 k),
    show Region1.warr (V7 m ρ) c (ix2 k j) = A5 m c (ix2 k j) from congrFun (W7_w2 m ρ c) _,
    ← ref_fin1_apply (A0 m c) (A1 m c) (A3 m c) (A4 m c) p k]

/-- The second region writes its output array only. -/
theorem W8_src : W8 m ρ c (Proc.devRef .tc main_v1) = srcR m c := (W8_of_ne m ρ c main_v1 (by decide)).trans (W7_src m ρ c)
theorem W8_dst : W8 m ρ c (Proc.devRef .tc main_v3) = dstR m c := (W8_of_ne m ρ c main_v3 (by decide)).trans (W7_dst m ρ c)
theorem W8_coef (hN : ∀ i : S2x640000.Idx, IsNode (A1 m c i)) : W8 m ρ c (Proc.devRef .tc main_v13) = Cert.ReferenceIdeal.Read.val_main_v26 (F := Ideal) (A1 m c) :=
  (W8_of_ne m ρ c main_v13 (by decide)).trans (W7_coef m ρ c hN)
theorem W8_scale2 : W8 m ρ c (Proc.devRef .tc main_v14) = Cert.ReferenceIdeal.Read.val_main_v40 (F := Ideal) (A1 m c) := (W8_of_ne m ρ c main_v14 (by decide)).trans (W7_scale2 m ρ c)
theorem W8_batch : W8 m ρ c (Proc.devRef .tc main_arg2) = A2 m c := (W8_of_ne m ρ c main_arg2 (by decide)).trans (W7_batch m ρ c)
theorem W8_b2 : W8 m ρ c (Proc.devRef .tc main_arg6) = A6 m c := (W8_of_ne m ρ c main_arg6 (by decide)).trans (W7_b2 m ρ c)

/-- The rows of h2 taken at the sources are the reference's gather of them. -/
theorem W9_take_h2 (hN : ∀ i : S2x640000.Idx, IsNode (A1 m c i)) :
    W9 m ρ c (Proc.devRef .tc main_v28) = Cert.ReferenceIdeal.Read.val_main_v78 (F := Ideal) (A0 m c) (A1 m c) (A3 m c) (A4 m c) (A5 m c) := by
  refine (take_h2_src (W8 m ρ c)).trans ?_
  rw [ofBuf_eq_of rV1 (W8 m ρ c (Proc.devRef .tc main_v1)) (srcR m c) (heq_of_eq (W8_src m ρ c)),
    ofBuf_eq_of rV27 (W8 m ρ c (Proc.devRef .tc main_v27)) (Cert.ReferenceIdeal.Read.val_main_v56 (F := Ideal) (A0 m c) (A1 m c) (A3 m c) (A4 m c) (A5 m c)) (heq_of_eq (W8_h2 m ρ c hN)),
    take128_eq (F := Ideal) (Cert.ReferenceIdeal.Read.val_main_v56 (F := Ideal) (A0 m c) (A1 m c) (A3 m c) (A4 m c) (A5 m c)) (srcR m c) (srcR_isNode m c hN)]
  exact toBuf_eq_of rV28 _ _ (heq_of_eq rfl)

/-- At the third region's entry: the aggregated messages of layer 2 are the reference's. -/
theorem W10_agg2 (hN : ∀ i : S2x640000.Idx, IsNode (A1 m c i)) :
    W10 m ρ c (Proc.devRef .tc main_v34) = Cert.ReferenceIdeal.Read.val_main_v84 (F := Ideal) (A0 m c) (A1 m c) (A3 m c) (A4 m c) (A5 m c) := by
  refine (agg2_of (W9 m ρ c)).trans ?_
  rw [show W9 m ρ c (Proc.devRef .tc main_v3) = dstR m c from ((take_h2_src_keeps (W8 m ρ c)).1).trans (W8_dst m ρ c),
    show W9 m ρ c (Proc.devRef .tc main_v13) = Cert.ReferenceIdeal.Read.val_main_v71 (F := Ideal) (A1 m c) from
      (((take_h2_src_keeps (W8 m ρ c)).2).trans (W8_coef m ρ c hN)).trans (coef_again (A1 m c)).symm,
    W9_take_h2 m ρ c hN]
  rfl

set_option maxHeartbeats 4000000 in
theorem W10_batch : W10 m ρ c (Proc.devRef .tc main_arg2) = A2 m c := by
  show StableHlo.after hostOps2_1 (StableHlo.after hostOps2 (W8 m ρ c)) (Proc.devRef .tc main_arg2) = _
  after_results_simp
  exact W8_batch m ρ c

set_option maxHeartbeats 4000000 in
theorem W10_h2 (hN : ∀ i : S2x640000.Idx, IsNode (A1 m c i)) : W10 m ρ c (Proc.devRef .tc main_v27) = Cert.ReferenceIdeal.Read.val_main_v56 (F := Ideal) (A0 m c) (A1 m c) (A3 m c) (A4 m c) (A5 m c) := by
  show StableHlo.after hostOps2_1 (StableHlo.after hostOps2 (W8 m ρ c)) (Proc.devRef .tc main_v27) = _
  after_results_simp
  exact W8_h2 m ρ c hN

set_option maxHeartbeats 4000000 in
/-- The squared degree scale, laid out as a column for the third region. -/
theorem W10_scol : (W10 m ρ c (Proc.devRef .tc main_v35) : FVec Ideal S100000x1 .f32)
    = shapeCast S100000x1 (Cert.ReferenceIdeal.Read.val_main_v40 (F := Ideal) (A1 m c) : FVec Ideal S100000 .f32) shapeCasts_S100000_S100000x1 := by
  show StableHlo.after hostOps2_1 (StableHlo.after hostOps2 (W8 m ρ c)) (Proc.devRef .tc main_v35) = _
  after_results_simp
  rw [W8_scale2 m ρ c]
  rfl

set_option maxHeartbeats 4000000 in
/-- The second bias, laid out as a row for the third region. -/
theorem W10_b2row : (W10 m ρ c (Proc.devRef .tc main_v36) : FVec Ideal S1x128 .f32)
    = shapeCast S1x128 (A6 m c) shapeCasts_S128_S1x128 := by
  show StableHlo.after hostOps2_1 (StableHlo.after hostOps2 (W8 m ρ c)) (Proc.devRef .tc main_v36) = _
  after_results_simp
  rw [W8_b2 m ρ c]
  rfl

end Cert.KernelIdeal.Walk

end
-- ==== Proof.Region2.lean ====
/-
  Region 2 of the kernel program: the second layer's finalize step, the returned node embedding,
      h = relu ((agg2 + h2 * s) + b2).

  The grid has 20 points; point t reads rows [5000 t, 5000 (t+1)) of agg2 (window 0), of h2 (window 1) and of the
  column s (window 2, 100000 × 1), the whole bias row b2 (window 3, 1 × 128), and writes rows [5000 t, 5000 (t+1)) of
  the output (window 4). The body is entry by entry: s broadcast along each row, the bias row down each column,
  then the maximum with zero:
      out (p, j) = max ((agg (p, j) + h (p, j) * s (p, 0)) + b (0, j)) 0.
  The 20 row blocks tile the 100000 rows.
-/
import proofs.«424269_j11579231830106_3_alg».proof.Proof.Gen.KernelIdeal.Frame
import proofs.«424269_j11579231830106_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

-- the TensorCore's buffer contents when the region is entered
variable (V : (c : Dev nD) → (b : Ref sig .tc) → Buf (Elt Ideal) ((c : Thread nD τ).loc b))

/-- The aggregated messages of layer 2 as the region finds them. -/
abbrev aggarr (c : Dev nD) : FVec Ideal S100000x128 .f32 := V c main_v34
/-- The layer-2 product h2 as the region finds it. -/
abbrev harr (c : Dev nD) : FVec Ideal S100000x128 .f32 := V c main_v27
/-- The self-loop scale, one entry per node, kept as a column. -/
abbrev sarr (c : Dev nD) : FVec Ideal S100000x1 .f32 := V c main_v35
/-- The layer-2 bias, kept as a row. -/
abbrev barr (c : Dev nD) : FVec Ideal S1x128 .f32 := V c main_v36
/-- The output array after the last grid point's write-back. -/
abbrev oarr (c : Dev nD) : FVec Ideal S100000x128 .f32 := (dat2 (F := Ideal) V c).arrAt 4 cfg2.N

/-! ## The body's arithmetic at one entry of a block -/

/-- A column `[a, 1]` spread across `b` columns holds, at `(p, c)`, the column's entry of row `p`. -/
theorem colBcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- the row axis is kept unless the column has a single row, and then the row is row 0 anyway
    show p.val = if a = 1 then 0 else p.val
    split
    · have := p.isLt; omega
    · rfl
  | ⟨1, _⟩ => rfl

/-- The finalize value at row `p`, column `j`, of four whole arrays: the aggregated messages plus the product scaled by
    the row's self-loop weight, plus the column's bias, cut off below at zero. -/
def finalizeAt (A H : FVec Ideal S100000x128 .f32) (S : FVec Ideal S100000x1 .f32) (B : FVec Ideal S1x128 .f32)
    (p : Fin 100000) (j : Fin 128) : EReal :=
  max ((A (ix2 p j) + H (ix2 p j) * S (ix2 p 0)) + B (ix2 0 j)) 0

/-- The same value as ONE function of the output's index: what the region's output array ends holding. -/
abbrev finalizeFn (A H : FVec Ideal S100000x128 .f32) (S : FVec Ideal S100000x1 .f32) (B : FVec Ideal S1x128 .f32) :
    FVec Ideal S100000x128 .f32 := fun i => finalizeAt A H S B (i 0) (i 1)

/-- The body's value at entry `(q, j)` of a block of 5000 rows: the casts to the same shape are identities, the scale
    column is read at `(q, 0)`, the bias row at `(0, j)`, and the zero word is the number 0. -/
theorem payload_apply (x0 x1 : Vec Ideal S5000x128 .f32) (x2 : Vec Ideal S5000x1 .f32) (x3 : Vec Ideal S1x128 .f32)
    (q : Fin 5000) (j : Fin 128) :
    k2_pay1 (F := Ideal) x0 x1 x2 x3 (ix2 q j)
      = max ((x0 (ix2 q j) + x1 (ix2 q j) * x2 (ix2 q 0)) + x3 (ix2 0 j)) 0 := by
  unfold k2_pay1
  simp only [shapeCast_self]
  rw [maximumf_apply, addf_apply, addf_apply, mulf_apply, broadcast_apply, colBcast_apply, broadcastTo_1b_ab_apply]
  show max _ (Ideal.ofBits .f32 0x00000000#32) = _
  rw [Ideal.ofBits_zero_f32]

/-- When the four blocks are the whole arrays' entries of row `p` (the bias block being the whole bias row), the body's
    value at `(q, j)` is the finalize value at `(p, j)`. -/
theorem payload_eq_finalizeAt (x0 x1 : Vec Ideal S5000x128 .f32) (x2 : Vec Ideal S5000x1 .f32) (x3 : Vec Ideal S1x128 .f32)
    (A H : FVec Ideal S100000x128 .f32) (S : FVec Ideal S100000x1 .f32) (B : FVec Ideal S1x128 .f32)
    (q : Fin 5000) (j : Fin 128) (p : Fin 100000)
    (h0 : x0 (ix2 q j) = A (ix2 p j)) (h1 : x1 (ix2 q j) = H (ix2 p j))
    (h2 : x2 (ix2 q 0) = S (ix2 p 0)) (h3 : x3 (ix2 0 j) = B (ix2 0 j)) :
    k2_pay1 (F := Ideal) x0 x1 x2 x3 (ix2 q j) = finalizeAt A H S B p j := by
  rw [payload_apply, h0, h1, h2, h3]
  rfl

/-! ## Where each block sits in its array -/

theorem zeroOffsets : (![0, 0] : Fin 2 → Nat) = fun _ => 0 := funext fun a => by fin_cases a <;> rfl

/-- At grid point `t` the four row-blocked windows (aggregate, product, scale column, output) are all at row block `t`,
    column block 0, and the bias row's window stays at block (0, 0): read off the printed index maps, point by point. -/
theorem blockIndex_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## What one grid point writes back -/

/-- Grid point `t` writes back rows `[5000 t, 5000 (t + 1))` of the finalize function of the arrays as the region finds
    them. Entry `(q, j)` of the block is row `p = 5000 t + q` of the output; the aggregate, the product and the scale
    column are read at the same row `p` (their windows sit at the same row block), the bias at `(0, j)`. -/
theorem rowBlock_writes_finalize (c : Dev nD) (t : Fin cfg2.N) :
    (dat2 (F := Ideal) V c).flushed 4 t
      = ((cfg2.win 4).blk t).view.read (Elt Ideal) (finalizeFn (aggarr V c) (harr V c) (sarr V c) (barr V c)) := by
  show (cfg2.win 4).cut (grid2.coords t) ((dat2 V c).after 4 t) = _
  rw [after2_4]
  unfold out2_4
  rw [View.canon_unit_zero zeroOffsets]
  simp only [View.ld_unit_zero (S := S5000x128) zeroOffsets, View.ld_unit_zero (S := S5000x1) zeroOffsets,
    View.ld_unit_zero (S := S1x128) zeroOffsets]
  obtain ⟨e00, e01, e10, e11, e20, e21, e30, e31, e40, e41⟩ := blockIndex_facts t
  funext y
  obtain ⟨q, j, rfl⟩ : ∃ (q : Fin 5000) (j : Fin 128), y = ix2 q j := ⟨y 0, y 1, eq_ix2 y⟩
  -- the output entry's place in the whole array: block index times block size plus the place inside the block
  have hrow : ((((cfg2.win 4).blk t).view.emb (ix2 q j)) 0).val = t.val * 5000 + q.val := by
    show win2_4.index t (0 : Fin 2) * 5000 + 1 * q.val = _
    rw [e40]; omega
  have hcol : ((((cfg2.win 4).blk t).view.emb (ix2 q j)) 1).val = j.val := by
    show win2_4.index t (1 : Fin 2) * 128 + 1 * j.val = _
    rw [e41]; omega
  show k2_pay1 (F := Ideal) (iblk2 V c 0 t) (iblk2 V c 1 t) (iblk2 V c 2 t) (iblk2 V c 3 t) (ix2 q j)
      = finalizeAt (aggarr V c) (harr V c) (sarr V c) (barr V c)
          ((((cfg2.win 4).blk t).view.emb (ix2 q j)) 0) ((((cfg2.win 4).blk t).view.emb (ix2 q j)) 1)
  refine (payload_eq_finalizeAt _ _ _ _ (aggarr V c) (harr V c) (sarr V c) (barr V c) q j
    ((((cfg2.win 4).blk t).view.emb (ix2 q j)) 0) ?_ ?_ ?_ ?_).trans ?_
  · -- the aggregate's block entry is the aggregate at the output's row
    show V c main_v34 (((cfg2.win 0).blk t).view.emb (ix2 q j)) = V c main_v34 (ix2 _ j)
    refine congrArg (V c main_v34) (funext fun a => Fin.ext ?_)
    match a with
    | ⟨0, _⟩ => show win2_0.index t (0 : Fin 2) * 5000 + 1 * q.val = _; rw [hrow, e00]; omega
    | ⟨1, _⟩ => show win2_0.index t (1 : Fin 2) * 128 + 1 * j.val = j.val; rw [e01]; omega
  · -- the product's block entry likewise
    show V c main_v27 (((cfg2.win 1).blk t).view.emb (ix2 q j)) = V c main_v27 (ix2 _ j)
    refine congrArg (V c main_v27) (funext fun a => Fin.ext ?_)
    match a with
    | ⟨0, _⟩ => show win2_1.index t (0 : Fin 2) * 5000 + 1 * q.val = _; rw [hrow, e10]; omega
    | ⟨1, _⟩ => show win2_1.index t (1 : Fin 2) * 128 + 1 * j.val = j.val; rw [e11]; omega
  · -- the scale column's block entry (q, 0) is the column at the output's row
    show V c main_v35 (((cfg2.win 2).blk t).view.emb (ix2 q 0)) = V c main_v35 (ix2 _ 0)
    refine congrArg (V c main_v35) (funext fun a => Fin.ext ?_)
    match a with
    | ⟨0, _⟩ => show win2_2.index t (0 : Fin 2) * 5000 + 1 * q.val = _; rw [hrow, e20]; omega
    | ⟨1, _⟩ => show win2_2.index t (1 : Fin 2) * 1 + 1 * 0 = 0; rw [e21]
  · -- the bias block is the whole bias row
    show V c main_v36 (((cfg2.win 3).blk t).view.emb (ix2 0 j)) = V c main_v36 (ix2 0 j)
    refine congrArg (V c main_v36) (funext fun a => Fin.ext ?_)
    match a with
    | ⟨0, _⟩ => show win2_3.index t (0 : Fin 2) * 1 + 1 * 0 = 0; rw [e30]
    | ⟨1, _⟩ => show win2_3.index t (1 : Fin 2) * 128 + 1 * j.val = j.val; rw [e31]; omega
  · -- the block's column is the output's column
    exact congrArg (finalizeAt (aggarr V c) (harr V c) (sarr V c) (barr V c) _) (Fin.ext hcol.symm)

/-! ## The twenty row blocks tile the output -/

/-- An index of the output lies in point `t`'s block iff each coordinate lies in the block's range on its axis. -/
theorem mem_rowBlock (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v37).slice (win2_4.rect t)).set ↔ _
  rw [View.set_slice_whole, Rect.mem_set_unit]
  exact Iff.rfl

/-- Row `r` of the output lies in the block of point `r / 5000`, and every point writes its block back. -/
theorem rows_covered (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hlt : (i 0).val / 5000 < 20 := by omega
  obtain ⟨-, -, -, -, -, -, -, -, e40, e41⟩ := blockIndex_facts ⟨(i 0).val / 5000, hlt⟩
  have e40' : win2_4.index ⟨(i 0).val / 5000, hlt⟩ (0 : Fin 2) = (i 0).val / 5000 := e40
  refine ⟨⟨(i 0).val / 5000, hlt⟩, flush2_4 _, ?_⟩
  rw [mem_rowBlock]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e40']; omega
  | ⟨1, _⟩ =>
    show win2_4.index ⟨(i 0).val / 5000, hlt⟩ (1 : Fin 2) * 128 ≤ (i 1).val
      ∧ (i 1).val < win2_4.index ⟨(i 0).val / 5000, hlt⟩ (1 : Fin 2) * 128 + 128
    rw [e41]; omega

/-- So after the last write-back the output array is the finalize function of the arrays the region found. -/
theorem oarr_eq_finalize (c : Dev nD) :
    oarr V c = finalizeFn (aggarr V c) (harr V c) (sarr V c) (barr V c) :=
  (dat2 (F := Ideal) V c).arrAt_eq_of_cover 4 (finalizeFn (aggarr V c) (harr V c) (sarr V c) (barr V c))
    (fun t _ => rowBlock_writes_finalize V c t) rows_covered

/-- Every entry of the region's output is the rectified finalize value at that entry. -/
theorem final2 (c : Dev nD) (p : Fin 100000) (j : Fin 128) :
    oarr V c (ix2 p j) = max ((aggarr V c (ix2 p j) + harr V c (ix2 p j) * sarr V c (ix2 p 0)) + barr V c (ix2 0 j)) 0 := by
  rw [oarr_eq_finalize]
  rfl

end Cert.KernelIdeal.Region2

end
-- ==== Proof.Walk3.lean ====
/-
  The kernel program from its third pallas_call to the return, read against the reference.

  The third region leaves the node embedding h = relu ((agg2 + h2 * s) + b2) in its output array (Region2), entry by
  entry; the reference reaches the same number through its broadcasts of the squared scale and the bias and a
  maximum against a broadcast zero. This array is the program's first result. The second, the mean of the embedding
  over each graph, is computed by both programs with the same operations on it — a scatter-add of the rows into the
  graphs' rows, a scatter-add of ones into the graphs' counts, the counts raised to at least one, and a division —,
  so it is the same function of the same array.
-/
import proofs.«424269_j11579231830106_3_alg».proof.Proof.Walk2
import proofs.«424269_j11579231830106_3_alg».proof.Proof.Region2

set_option maxRecDepth 16384

noncomputable section

namespace Cert.KernelIdeal.Walk

open Cert.KernelIdeal Cert.KernelIdeal.Gen Idealize.ShloMosaic Idealize.ShloMosaic.ValueIdx Idealize.ShloMosaic.TcCoe Idealize.SL.Sem Idealize.ShloMosaic.StableHlo
open Cert.IdxRange Cert.KernelIdeal.TakeLaw

section Reference

open Cert.ReferenceIdeal.Read

variable (x0 : FVec Ideal Cert.ReferenceIdeal.S100000x128 .f32) (x1 : IVec Cert.ReferenceIdeal.S2x640000 32)
  (x3 : FVec Ideal Cert.ReferenceIdeal.S128x256 .f32) (x4 : FVec Ideal Cert.ReferenceIdeal.S256 .f32)
  (x5 : FVec Ideal Cert.ReferenceIdeal.S256x128 .f32) (x6 : FVec Ideal Cert.ReferenceIdeal.S128 .f32)

/-- The reference's rectified second-layer value at (p, j). -/
theorem ref_fin2_apply (p : Fin 100000) (j : Fin 128) :
    val_main_v93 (F := Ideal) x0 x1 x3 x4 x5 x6 (ix2 p j)
      = max ((val_main_v84 (F := Ideal) x0 x1 x3 x4 x5 (ix2 p j) + val_main_v56 (F := Ideal) x0 x1 x3 x4 x5 (ix2 p j) * val_main_v85 (F := Ideal) x1 (ix1 p))
          + x6 (ix1 j)) 0 := by
  rw [val_main_v93_apply, val_main_v92_apply, val_main_v89_apply, val_main_v88_apply, val_main_v87_apply, val_main_v86_apply,
    val_main_v91_apply, val_main_v90_apply, val_main_call1_v0_apply, val_main_call1_cst_apply]
  have e1 : idx_main_v86 (idx_main_v87 (ix2 p j)) = ix1 p := funext fun a => Fin.ext (by match a with | ⟨0, _⟩ => rfl)
  have e2 : idx_main_v90 (idx_main_v91 (ix2 p j)) = ix1 j := funext fun a => Fin.ext (by match a with | ⟨0, _⟩ => rfl)
  rw [e1, e2]
  simp only [Ideal.maximumf_def, Ideal.addf_def, Ideal.mulf_def, Ideal.ofBits_def, Ideal.ofBits_zero_f32]

end Reference

variable (m : (ℓ : Loc nD τ sig) → Buf (Elt Ideal) ℓ) (ρ : Dev nD → PrngReg) (c : Dev nD)

/-- The third region's output, the program's first result, is the reference's node embedding. -/
theorem W11_out (hN : ∀ i : S2x640000.Idx, IsNode (A1 m c i)) :
    W11 m ρ c (Proc.devRef .tc main_v37) = Cert.ReferenceIdeal.Read.val_main_v93 (F := Ideal) (A0 m c) (A1 m c) (A3 m c) (A4 m c) (A5 m c) (A6 m c) := by
  refine (W11_arr m ρ c 4).trans ?_
  show Region2.oarr (V10 m ρ) c = _
  funext i
  obtain ⟨p, j, rfl⟩ : ∃ (p : Fin 100000) (j : Fin 128), i = ix2 p j := ⟨i 0, i 1, eq_ix2 i⟩
  refine (Region2.final2 (V10 m ρ) c p j).trans ?_
  rw [show Region2.aggarr (V10 m ρ) c (ix2 p j) = Cert.ReferenceIdeal.Read.val_main_v84 (F := Ideal) (A0 m c) (A1 m c) (A3 m c) (A4 m c) (A5 m c) (ix2 p j) from congrFun (W10_agg2 m ρ c hN) _,
    show Region2.harr (V10 m ρ) c (ix2 p j) = Cert.ReferenceIdeal.Read.val_main_v56 (F := Ideal) (A0 m c) (A1 m c) (A3 m c) (A4 m c) (A5 m c) (ix2 p j) from congrFun (W10_h2 m ρ c hN) _,
    show Region2.sarr (V10 m ρ) c (ix2 p 0) = Cert.ReferenceIdeal.Read.val_main_v85 (F := Ideal) (A1 m c) (ix1 p) from
      ((congrFun (W10_scol m ρ c) _).trans (shapeCast_a_a1_apply _ _ p 0)).trans (congrFun (scale2_again (A1 m c)).symm _),
    show Region2.barr (V10 m ρ) c (ix2 0 j) = A6 m c (ix1 j) from
      (congrFun (W10_b2row m ρ c) _).trans (shapeCast_a_1a_apply _ _ 0 j)]
  exact (ref_fin2_apply (A0 m c) (A1 m c) (A3 m c) (A4 m c) (A5 m c) (A6 m c) p j).symm

/-- The third region writes its output array only. -/
theorem W11_batch : W11 m ρ c (Proc.devRef .tc main_arg2) = A2 m c := (W11_of_ne m ρ c main_arg2 (by decide)).trans (W10_batch m ρ c)

set_option maxHeartbeats 4000000 in
/-- The first result at the return: the pooling operations do not write it. -/
theorem W12_out (hN : ∀ i : S2x640000.Idx, IsNode (A1 m c i)) :
    W12 m ρ c (Proc.devRef .tc main_v37) = Cert.ReferenceIdeal.Read.val_main_v93 (F := Ideal) (A0 m c) (A1 m c) (A3 m c) (A4 m c) (A5 m c) (A6 m c) := by
  show StableHlo.after hostOps3 (W11 m ρ c) (Proc.devRef .tc main_v37) = _
  after_results_simp
  exact W11_out m ρ c hN

set_option maxHeartbeats 4000000 in
/-- The second result at the return: the reference's mean over each graph of the same embedding. -/
theorem W12_pool (hN : ∀ i : S2x640000.Idx, IsNode (A1 m c i)) :
    W12 m ρ c (Proc.devRef .tc main_v49) = Cert.ReferenceIdeal.Read.val_main_v105 (F := Ideal) (A0 m c) (A1 m c) (A2 m c) (A3 m c) (A4 m c) (A5 m c) (A6 m c) := by
  show StableHlo.after hostOps3 (W11 m ρ c) (Proc.devRef .tc main_v49) = _
  after_results_simp
  rw [W11_out m ρ c hN, W11_batch m ρ c]
  rfl

end Cert.KernelIdeal.Walk

end
-- ==== Proof.lean ====
/-
  A two-layer graph convolution with mean pooling: the kernel program against the reference.

  Both programs compute, for a graph of 100000 nodes and 640000 edges with node features x,
      h1 = x · W1,   a1 = relu ((A h1 + h1 * s) + b1),   h2 = a1 · W2,   h = relu ((A h2 + h2 * s) + b2),
  where A scatter-adds, into each edge's destination row, the source's row scaled by the product of the two
  endpoints' degree scales, s is the squared degree scale of the node, and the second result is the mean of h over
  each graph. The kernel program does the two dense products and the two finalize steps in three pallas_calls (the
  first layer's finalize step fused into the second product) and everything else on the host, as the reference does.

  At the exact instance a narrowing to bf16 is the identity, a product into a zero accumulator is the plain sum over
  the contracted axis, and neither program blocks a contraction, so region by region the kernel's arrays are the
  reference's stages (Region0, Region1, Region2, and the walk of the host stretches between them, Walk0 … Walk3).
  The one place the two programs differ is the spelling of a gather: the kernel program masks it and fills where an
  index is out of range, the reference clamps the index. Under the precondition every entry of the edge list is a
  node number, the mask is set everywhere, and the two spellings read the same entry (IdxRange, TakeLaw). Both
  programs then end with the same two arrays, as functions of arguments that agree.

  The three frames: the two kernel programs' are generated whole; the reference's is its generated run with the
  results dropped. The idealization rewrote no operation, so there is nothing to preserve.
-/
import proofs.«424269_j11579231830106_3_alg».proof.Defs
import proofs.«424269_j11579231830106_3_alg».proof.Proof.Gen.Kernel
import proofs.«424269_j11579231830106_3_alg».proof.Proof.Gen.Kernel.Skeleton
import proofs.«424269_j11579231830106_3_alg».proof.Proof.Gen.Kernel.Launch
import proofs.«424269_j11579231830106_3_alg».proof.Proof.Gen.Kernel.Points
import proofs.«424269_j11579231830106_3_alg».proof.Proof.Gen.Kernel.Frame
import proofs.«424269_j11579231830106_3_alg».proof.Proof.Gen.KernelIdeal
import proofs.«424269_j11579231830106_3_alg».proof.Proof.Gen.KernelIdeal.Skeleton
import proofs.«424269_j11579231830106_3_alg».proof.Proof.Gen.KernelIdeal.Launch
import proofs.«424269_j11579231830106_3_alg».proof.Proof.Gen.KernelIdeal.Points
import proofs.«424269_j11579231830106_3_alg».proof.Proof.Gen.KernelIdeal.Frame
import proofs.«424269_j11579231830106_3_alg».proof.Proof.Gen.ReferenceIdeal
import proofs.«424269_j11579231830106_3_alg».proof.Proof.Gen.ReferenceIdeal.Run
import proofs.«424269_j11579231830106_3_alg».proof.Proof.Gen.ReferenceIdeal.Read
import proofs.«424269_j11579231830106_3_alg».proof.Proof.Gen.Pre_finite_inputs
import proofs.«424269_j11579231830106_3_alg».proof.Proof.RunOut
import proofs.«424269_j11579231830106_3_alg».proof.Proof.Walk3
import Idealize.ShloMosaic.Adequacy
import Idealize.ShloMosaic.Init

noncomputable section

namespace Cert.Proof

open Idealize.ShloMosaic Idealize.SL.Sem

/-- The node embedding, as the reference's last stage of the kernel program's arguments. -/
abbrev nodeOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v37) :=
  Cert.ReferenceIdeal.Read.val_main_v93 (F := Ideal) (Cert.KernelIdeal.Walk.A0 m c) (Cert.KernelIdeal.Walk.A1 m c) (Cert.KernelIdeal.Walk.A3 m c) (Cert.KernelIdeal.Walk.A4 m c) (Cert.KernelIdeal.Walk.A5 m c) (Cert.KernelIdeal.Walk.A6 m c)

/-- The pooled embedding, likewise. -/
abbrev poolOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v49) :=
  Cert.ReferenceIdeal.Read.val_main_v105 (F := Ideal) (Cert.KernelIdeal.Walk.A0 m c) (Cert.KernelIdeal.Walk.A1 m c) (Cert.KernelIdeal.Walk.A2 m c) (Cert.KernelIdeal.Walk.A3 m c) (Cert.KernelIdeal.Walk.A4 m c) (Cert.KernelIdeal.Walk.A5 m c) (Cert.KernelIdeal.Walk.A6 m c)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Under the precondition the kernel program ends with the reference's two stages of its own arguments. -/
theorem kernel_ends (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v37) = nodeOut m c
      ∧ r.2.mem ((c.tc : Thread Cert.KernelIdeal.nD Cert.KernelIdeal.τ).loc Cert.KernelIdeal.main_v49) = poolOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c =>
      have hN : ∀ i, Cert.IdxRange.IsNode (Cert.KernelIdeal.Walk.A1 m c i) := Cert.IdxRange.of_pre _ _ _ _ _ _ _ (hpre c)
      ⟨(h c).1.trans (Cert.KernelIdeal.Walk.W12_out m ρ c hN), (h c).2.1.trans (Cert.KernelIdeal.Walk.W12_pool m ρ c hN), (h c).2.2⟩)
    (Cert.KernelIdeal.RunOut.run_out m ρ)

theorem algebraic : Cert.algebraic_KernelIdeal_ReferenceIdeal := by
  intro m ρ m' ρ' hpre hagree
  refine ⟨nodeOut m, poolOut m, kernel_ends m ρ hpre, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v93_eq, (hagree c).1, (hagree c).2.1, (hagree c).2.2.2.1, (hagree c).2.2.2.2.1,
      (hagree c).2.2.2.2.2.1, (hagree c).2.2.2.2.2.2]
  · rw [Cert.ReferenceIdeal.Read.val_main_v105_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
